-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v58)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v58) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v94) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S50000x128 : Shape := ⟨2, ![50000, 128]⟩
abbrev S2x800000 : Shape := ⟨2, ![2, 800000]⟩
abbrev S128x128 : Shape := ⟨2, ![128, 128]⟩
abbrev S128 : Shape := ⟨1, ![128]⟩
abbrev S_ : Shape := ⟨0, ![]⟩

class Facts : Prop where
  bcast_S_S50000x128 : S_.BroadcastsInDim S50000x128 (![] : Fin 0 → Fin S50000x128.rank)
  reducesTo_S50000x128_S_d0_1 : S50000x128.ReducesTo [0, 1] S_
  h_S_ : 0 < S_.numel
  bcast_S_S128x128 : S_.BroadcastsInDim S128x128 (![] : Fin 0 → Fin S128x128.rank)
  reducesTo_S128x128_S_d0_1 : S128x128.ReducesTo [0, 1] S_
  bcast_S_S128 : S_.BroadcastsInDim S128 (![] : Fin 0 → Fin S128.rank)
  reducesTo_S128_S_d0 : S128.ReducesTo [0] S_

variable [Facts]

def fn_part1 {F : FTy → Type} [FloatOps F] (main_arg5 : FVec F S128 .f32) (main_v13 : IVec S_ 1) (main_v16 : IVec S128x128 1) : IVec S_ 1 :=
  let main_c_5 : IVec S_ 1 := constantI S_ 1 1#1
  let main_v17 : IVec S_ 1 := (fun x v => Host.reduce IntOp.andi x v reducesTo_S128x128_S_d0_1 h_S_) main_v16 main_c_5
  let main_v18 : IVec S_ 1 := andi main_v13 main_v17
  let main_v19 : FVec F S128 .f32 := Host.absf main_arg5
  let main_cst_6 : FVec F S_ .f32 := constant S_ .f32 0x7F800000#32
  let main_v20 : FVec F S128 .f32 := broadcastInDim S128 ![] bcast_S_S128 main_cst_6
  let main_v21 : IVec S128 1 := cmpf .olt main_v19 main_v20
  let main_c_7 : IVec S_ 1 := constantI S_ 1 1#1
  let main_v22 : IVec S_ 1 := (fun x v => Host.reduce IntOp.andi x v reducesTo_S128_S_d0 h_S_) main_v21 main_c_7
  let main_v23 : IVec S_ 1 := andi main_v18 main_v22
  main_v23

def fn {F : FTy → Type} [FloatOps F] (main_arg0 : FVec F S50000x128 .f32) (main_arg1 : IVec S2x800000 32) (main_arg2 : FVec F S128x128 .f32) (main_arg3 : FVec F S128 .f32) (main_arg4 : FVec F S128x128 .f32) (main_arg5 : FVec F S128 .f32) : IVec S_ 1 :=
  let main_v0 : FVec F S50000x128 .f32 := Host.absf main_arg0
  let main_cst : FVec F S_ .f32 := constant S_ .f32 0x7F800000#32
  let main_v1 : FVec F S50000x128 .f32 := broadcastInDim S50000x128 ![] bcast_S_S50000x128 main_cst
  let main_v2 : IVec S50000x128 1 := cmpf .olt main_v0 main_v1
  let main_c : IVec S_ 1 := constantI S_ 1 1#1
  let main_v3 : IVec S_ 1 := (fun x v => Host.reduce IntOp.andi x v reducesTo_S50000x128_S_d0_1 h_S_) main_v2 main_c
  let main_v4 : FVec F S128x128 .f32 := Host.absf main_arg2
  let main_cst_0 : FVec F S_ .f32 := constant S_ .f32 0x7F800000#32
  let main_v5 : FVec F S128x128 .f32 := broadcastInDim S128x128 ![] bcast_S_S128x128 main_cst_0
  let main_v6 : IVec S128x128 1 := cmpf .olt main_v4 main_v5
  let main_c_1 : IVec S_ 1 := constantI S_ 1 1#1
  let main_v7 : IVec S_ 1 := (fun x v => Host.reduce IntOp.andi x v reducesTo_S128x128_S_d0_1 h_S_) main_v6 main_c_1
  let main_v8 : IVec S_ 1 := andi main_v3 main_v7
  let main_v9 : FVec F S128 .f32 := Host.absf main_arg3
  let main_cst_2 : FVec F S_ .f32 := constant S_ .f32 0x7F800000#32
  let main_v10 : FVec F S128 .f32 := broadcastInDim S128 ![] bcast_S_S128 main_cst_2
  let main_v11 : IVec S128 1 := cmpf .olt main_v9 main_v10
  let main_c_3 : IVec S_ 1 := constantI S_ 1 1#1
  let main_v12 : IVec S_ 1 := (fun x v => Host.reduce IntOp.andi x v reducesTo_S128_S_d0 h_S_) main_v11 main_c_3
  let main_v13 : IVec S_ 1 := andi main_v8 main_v12
  let main_v14 : FVec F S128x128 .f32 := Host.absf main_arg4
  let main_cst_4 : FVec F S_ .f32 := constant S_ .f32 0x7F800000#32
  let main_v15 : FVec F S128x128 .f32 := broadcastInDim S128x128 ![] bcast_S_S128x128 main_cst_4
  let main_v16 : IVec S128x128 1 := cmpf .olt main_v14 main_v15
  fn_part1 (F := F) main_arg5 main_v13 main_v16
-- ==== Kernel.lean ====
abbrev S50000x128 : Shape := ⟨2, ![50000, 128]⟩
abbrev S2x800000 : Shape := ⟨2, ![2, 800000]⟩
abbrev S128x128 : Shape := ⟨2, ![128, 128]⟩
abbrev S128 : Shape := ⟨1, ![128]⟩
abbrev S1x800000 : Shape := ⟨2, ![1, 800000]⟩
abbrev S800000 : Shape := ⟨1, ![800000]⟩
abbrev S_ : Shape := ⟨0, ![]⟩
abbrev S50000 : Shape := ⟨1, ![50000]⟩
abbrev S800000x1 : Shape := ⟨2, ![800000, 1]⟩
abbrev S50000x1 : Shape := ⟨2, ![50000, 1]⟩
abbrev S2000x128 : Shape := ⟨2, ![2000, 128]⟩
abbrev S800000x128 : Shape := ⟨2, ![800000, 128]⟩
abbrev S1x128 : Shape := ⟨2, ![1, 128]⟩
abbrev S2000x1 : Shape := ⟨2, ![2000, 1]⟩

abbrev nBuf : Space → Nat
  | .hbm => 78
  | .vmem => 30
  | .smem => 0
  | _ => 0

abbrev bufTy : (tb : Table) → Fin (tcTables nBuf tb) → BufTy
  | .hbm, ⟨0, _⟩ => ⟨S50000x128, .f32⟩
  | .hbm, ⟨1, _⟩ => ⟨S2x800000, .i32⟩
  | .hbm, ⟨2, _⟩ => ⟨S128x128, .f32⟩
  | .hbm, ⟨3, _⟩ => ⟨S128, .f32⟩
  | .hbm, ⟨4, _⟩ => ⟨S128x128, .f32⟩
  | .hbm, ⟨5, _⟩ => ⟨S128, .f32⟩
  | .hbm, ⟨6, _⟩ => ⟨S1x800000, .i32⟩
  | .hbm, ⟨7, _⟩ => ⟨S800000, .i32⟩
  | .hbm, ⟨8, _⟩ => ⟨S1x800000, .i32⟩
  | .hbm, ⟨9, _⟩ => ⟨S800000, .i32⟩
  | .hbm, ⟨10, _⟩ => ⟨S_, .f32⟩
  | .hbm, ⟨11, _⟩ => ⟨S800000, .f32⟩
  | .hbm, ⟨12, _⟩ => ⟨S_, .f32⟩
  | .hbm, ⟨13, _⟩ => ⟨S50000, .f32⟩
  | .hbm, ⟨14, _⟩ => ⟨S800000x1, .i32⟩
  | .hbm, ⟨15, _⟩ => ⟨S50000, .f32⟩
  | .hbm, ⟨16, _⟩ => ⟨S_, .f32⟩
  | .hbm, ⟨17, _⟩ => ⟨S50000, .f32⟩
  | .hbm, ⟨18, _⟩ => ⟨S50000, .f32⟩
  | .hbm, ⟨19, _⟩ => ⟨S50000, .f32⟩
  | .hbm, ⟨20, _⟩ => ⟨S50000, .f32⟩
  | .hbm, ⟨21, _⟩ => ⟨S50000x1, .f32⟩
  | .hbm, ⟨22, _⟩ => ⟨S_, .i32⟩
  | .hbm, ⟨23, _⟩ => ⟨S800000, .i32⟩
  | .hbm, ⟨24, _⟩ => ⟨S800000, .i1⟩
  | .hbm, ⟨25, _⟩ => ⟨S_, .i32⟩
  | .hbm, ⟨26, _⟩ => ⟨S800000, .i32⟩
  | .hbm, ⟨27, _⟩ => ⟨S800000, .i32⟩
  | .hbm, ⟨28, _⟩ => ⟨S800000, .i32⟩
  | .hbm, ⟨29, _⟩ => ⟨S800000x1, .i32⟩
  | .hbm, ⟨30, _⟩ => ⟨S800000, .f32⟩
  | .hbm, ⟨31, _⟩ => ⟨S_, .i32⟩
  | .hbm, ⟨32, _⟩ => ⟨S800000, .i32⟩
  | .hbm, ⟨33, _⟩ => ⟨S800000, .i1⟩
  | .hbm, ⟨34, _⟩ => ⟨S_, .i32⟩
  | .hbm, ⟨35, _⟩ => ⟨S800000, .i32⟩
  | .hbm, ⟨36, _⟩ => ⟨S800000, .i32⟩
  | .hbm, ⟨37, _⟩ => ⟨S800000, .i32⟩
  | .hbm, ⟨38, _⟩ => ⟨S800000x1, .i32⟩
  | .hbm, ⟨39, _⟩ => ⟨S800000, .f32⟩
  | .hbm, ⟨40, _⟩ => ⟨S800000, .f32⟩
  | .hbm, ⟨41, _⟩ => ⟨S800000x1, .f32⟩
  | .hbm, ⟨42, _⟩ => ⟨S50000x128, .f32⟩
  | .hbm, ⟨43, _⟩ => ⟨S_, .i32⟩
  | .hbm, ⟨44, _⟩ => ⟨S800000, .i32⟩
  | .hbm, ⟨45, _⟩ => ⟨S800000, .i1⟩
  | .hbm, ⟨46, _⟩ => ⟨S_, .i32⟩
  | .hbm, ⟨47, _⟩ => ⟨S800000, .i32⟩
  | .hbm, ⟨48, _⟩ => ⟨S800000, .i32⟩
  | .hbm, ⟨49, _⟩ => ⟨S800000, .i32⟩
  | .hbm, ⟨50, _⟩ => ⟨S800000x1, .i32⟩
  | .hbm, ⟨51, _⟩ => ⟨S800000x128, .f32⟩
  | .hbm, ⟨52, _⟩ => ⟨S800000x128, .f32⟩
  | .hbm, ⟨53, _⟩ => ⟨S800000x128, .f32⟩
  | .hbm, ⟨54, _⟩ => ⟨S_, .f32⟩
  | .hbm, ⟨55, _⟩ => ⟨S50000x128, .f32⟩
  | .hbm, ⟨56, _⟩ => ⟨S800000x1, .i32⟩
  | .hbm, ⟨57, _⟩ => ⟨S50000x128, .f32⟩
  | .hbm, ⟨58, _⟩ => ⟨S1x128, .f32⟩
  | .hbm, ⟨59, _⟩ => ⟨S50000x128, .f32⟩
  | .hbm, ⟨60, _⟩ => ⟨S50000x128, .f32⟩
  | .hbm, ⟨61, _⟩ => ⟨S_, .i32⟩
  | .hbm, ⟨62, _⟩ => ⟨S800000, .i32⟩
  | .hbm, ⟨63, _⟩ => ⟨S800000, .i1⟩
  | .hbm, ⟨64, _⟩ => ⟨S_, .i32⟩
  | .hbm, ⟨65, _⟩ => ⟨S800000, .i32⟩
  | .hbm, ⟨66, _⟩ => ⟨S800000, .i32⟩
  | .hbm, ⟨67, _⟩ => ⟨S800000, .i32⟩
  | .hbm, ⟨68, _⟩ => ⟨S800000x1, .i32⟩
  | .hbm, ⟨69, _⟩ => ⟨S800000x128, .f32⟩
  | .hbm, ⟨70, _⟩ => ⟨S800000x128, .f32⟩
  | .hbm, ⟨71, _⟩ => ⟨S800000x128, .f32⟩
  | .hbm, ⟨72, _⟩ => ⟨S_, .f32⟩
  | .hbm, ⟨73, _⟩ => ⟨S50000x128, .f32⟩
  | .hbm, ⟨74, _⟩ => ⟨S800000x1, .i32⟩
  | .hbm, ⟨75, _⟩ => ⟨S50000x128, .f32⟩
  | .hbm, ⟨76, _⟩ => ⟨S1x128, .f32⟩
  | .hbm, ⟨77, _⟩ => ⟨S50000x128, .f32⟩
  | .local _ .vmem, ⟨0, _⟩ => ⟨S2000x128, .f32⟩
  | .local _ .vmem, ⟨1, _⟩ => ⟨S2000x128, .f32⟩
  | .local _ .vmem, ⟨2, _⟩ => ⟨S128x128, .f32⟩
  | .local _ .vmem, ⟨3, _⟩ => ⟨S2000x128, .f32⟩
  | .local _ .vmem, ⟨4, _⟩ => ⟨S2000x128, .f32⟩
  | .local _ .vmem, ⟨5, _⟩ => ⟨S2000x128, .f32⟩
  | .local _ .vmem, ⟨6, _⟩ => ⟨S2000x128, .f32⟩
  | .local _ .vmem, ⟨7, _⟩ => ⟨S2000x128, .f32⟩
  | .local _ .vmem, ⟨8, _⟩ => ⟨S2000x128, .f32⟩
  | .local _ .vmem, ⟨9, _⟩ => ⟨S2000x1, .f32⟩
  | .local _ .vmem, ⟨10, _⟩ => ⟨S2000x1, .f32⟩
  | .local _ .vmem, ⟨11, _⟩ => ⟨S1x128, .f32⟩
  | .local _ .vmem, ⟨12, _⟩ => ⟨S2000x128, .f32⟩
  | .local _ .vmem, ⟨13, _⟩ => ⟨S2000x128, .f32⟩
  | .local _ .vmem, ⟨14, _⟩ => ⟨S2000x128, .f32⟩
  | .local _ .vmem, ⟨15, _⟩ => ⟨S2000x128, .f32⟩
  | .local _ .vmem, ⟨16, _⟩ => ⟨S128x128, .f32⟩
  | .local _ .vmem, ⟨17, _⟩ => ⟨S2000x128, .f32⟩
  | .local _ .vmem, ⟨18, _⟩ => ⟨S2000x128, .f32⟩
  | .local _ .vmem, ⟨19, _⟩ => ⟨S2000x128, .f32⟩
  | .local _ .vmem, ⟨20, _⟩ => ⟨S2000x128, .f32⟩
  | .local _ .vmem, ⟨21, _⟩ => ⟨S2000x128, .f32⟩
  | .local _ .vmem, ⟨22, _⟩ => ⟨S2000x128, .f32⟩
  | .local _ .vmem, ⟨23, _⟩ => ⟨S2000x1, .f32⟩
  | .local _ .vmem, ⟨24, _⟩ => ⟨S2000x1, .f32⟩
  | .local _ .vmem, ⟨25, _⟩ => ⟨S1x128, .f32⟩
  | .local _ .vmem, ⟨26, _⟩ => ⟨S2000x128, .f32⟩
  | .local _ .vmem, ⟨27, _⟩ => ⟨S2000x128, .f32⟩
  | .local _ .vmem, ⟨28, _⟩ => ⟨S2000x128, .f32⟩
  | .local _ .vmem, ⟨29, _⟩ => ⟨S2000x128, .f32⟩
  | _, _ => ⟨S50000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | _, _ => false

abbrev semScoped : Fin 0 → Bool
  | ⟨_, h⟩ => absurd h (Nat.not_lt_zero _)

abbrev dmaSemScoped : Fin 30 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | _ => false

abbrev sig : RefSig :=
  ofTc nBuf bufTy 0 30 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_cst : Ref sig .tc := ⟨.hbm, 10, rfl⟩
abbrev main_v4 : Ref sig .tc := ⟨.hbm, 11, rfl⟩
abbrev main_cst_0 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_cst_1 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_c : Ref sig .tc := ⟨.hbm, 22, rfl⟩
abbrev main_v13 : Ref sig .tc := ⟨.hbm, 23, rfl⟩
abbrev main_v14 : Ref sig .tc := ⟨.hbm, 24, rfl⟩
abbrev main_c_2 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_c_3 : Ref sig .tc := ⟨.hbm, 31, rfl⟩
abbrev main_v20 : Ref sig .tc := ⟨.hbm, 32, rfl⟩
abbrev main_v21 : Ref sig .tc := ⟨.hbm, 33, rfl⟩
abbrev main_c_4 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩
abbrev main_v27 : Ref sig .tc := ⟨.hbm, 40, rfl⟩
abbrev main_v28 : Ref sig .tc := ⟨.hbm, 41, rfl⟩
abbrev main_v29 : Ref sig .tc := ⟨.hbm, 42, rfl⟩
abbrev main_c_5 : Ref sig .tc := ⟨.hbm, 43, rfl⟩
abbrev main_v30 : Ref sig .tc := ⟨.hbm, 44, rfl⟩
abbrev main_v31 : Ref sig .tc := ⟨.hbm, 45, rfl⟩
abbrev main_c_6 : Ref sig .tc := ⟨.hbm, 46, rfl⟩
abbrev main_v32 : Ref sig .tc := ⟨.hbm, 47, rfl⟩
abbrev main_v33 : Ref sig .tc := ⟨.hbm, 48, rfl⟩
abbrev main_v34 : Ref sig .tc := ⟨.hbm, 49, rfl⟩
abbrev main_v35 : Ref sig .tc := ⟨.hbm, 50, rfl⟩
abbrev main_v36 : Ref sig .tc := ⟨.hbm, 51, rfl⟩
abbrev main_v37 : Ref sig .tc := ⟨.hbm, 52, rfl⟩
abbrev main_v38 : Ref sig .tc := ⟨.hbm, 53, rfl⟩
abbrev main_cst_7 : Ref sig .tc := ⟨.hbm, 54, rfl⟩
abbrev main_v39 : Ref sig .tc := ⟨.hbm, 55, rfl⟩
abbrev main_v40 : Ref sig .tc := ⟨.hbm, 56, rfl⟩
abbrev main_v41 : Ref sig .tc := ⟨.hbm, 57, rfl⟩
abbrev main_v42 : Ref sig .tc := ⟨.hbm, 58, rfl⟩
abbrev main_v43 : Ref sig .tc := ⟨.hbm, 59, rfl⟩
abbrev main_v44 : Ref sig .tc := ⟨.hbm, 60, rfl⟩
abbrev main_c_8 : Ref sig .tc := ⟨.hbm, 61, rfl⟩
abbrev main_v45 : Ref sig .tc := ⟨.hbm, 62, rfl⟩
abbrev main_v46 : Ref sig .tc := ⟨.hbm, 63, rfl⟩
abbrev main_c_9 : Ref sig .tc := ⟨.hbm, 64, rfl⟩
abbrev main_v47 : Ref sig .tc := ⟨.hbm, 65, rfl⟩
abbrev main_v48 : Ref sig .tc := ⟨.hbm, 66, rfl⟩
abbrev main_v49 : Ref sig .tc := ⟨.hbm, 67, rfl⟩
abbrev main_v50 : Ref sig .tc := ⟨.hbm, 68, rfl⟩
abbrev main_v51 : Ref sig .tc := ⟨.hbm, 69, rfl⟩
abbrev main_v52 : Ref sig .tc := ⟨.hbm, 70, rfl⟩
abbrev main_v53 : Ref sig .tc := ⟨.hbm, 71, rfl⟩
abbrev main_cst_10 : Ref sig .tc := ⟨.hbm, 72, rfl⟩
abbrev main_v54 : Ref sig .tc := ⟨.hbm, 73, rfl⟩
abbrev main_v55 : Ref sig .tc := ⟨.hbm, 74, rfl⟩
abbrev main_v56 : Ref sig .tc := ⟨.hbm, 75, rfl⟩
abbrev main_v57 : Ref sig .tc := ⟨.hbm, 76, rfl⟩
abbrev main_v58 : Ref sig .tc := ⟨.hbm, 77, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc1_stg0_0 : Ref sig .tc := ⟨.vmem, 5, rfl⟩
abbrev cc1_stg0_1 : Ref sig .tc := ⟨.vmem, 6, rfl⟩
abbrev cc1_stg1_0 : Ref sig .tc := ⟨.vmem, 7, rfl⟩
abbrev cc1_stg1_1 : Ref sig .tc := ⟨.vmem, 8, rfl⟩
abbrev cc1_stg2_0 : Ref sig .tc := ⟨.vmem, 9, rfl⟩
abbrev cc1_stg2_1 : Ref sig .tc := ⟨.vmem, 10, rfl⟩
abbrev cc1_stg3_0 : Ref sig .tc := ⟨.vmem, 11, rfl⟩
abbrev cc1_stg4_0 : Ref sig .tc := ⟨.vmem, 12, rfl⟩
abbrev cc1_stg4_1 : Ref sig .tc := ⟨.vmem, 13, rfl⟩
abbrev cc2_stg0_0 : Ref sig .tc := ⟨.vmem, 14, rfl⟩
abbrev cc2_stg0_1 : Ref sig .tc := ⟨.vmem, 15, rfl⟩
abbrev cc2_stg1_0 : Ref sig .tc := ⟨.vmem, 16, rfl⟩
abbrev cc2_stg2_0 : Ref sig .tc := ⟨.vmem, 17, rfl⟩
abbrev cc2_stg2_1 : Ref sig .tc := ⟨.vmem, 18, rfl⟩
abbrev cc3_stg0_0 : Ref sig .tc := ⟨.vmem, 19, rfl⟩
abbrev cc3_stg0_1 : Ref sig .tc := ⟨.vmem, 20, rfl⟩
abbrev cc3_stg1_0 : Ref sig .tc := ⟨.vmem, 21, rfl⟩
abbrev cc3_stg1_1 : Ref sig .tc := ⟨.vmem, 22, rfl⟩
abbrev cc3_stg2_0 : Ref sig .tc := ⟨.vmem, 23, rfl⟩
abbrev cc3_stg2_1 : Ref sig .tc := ⟨.vmem, 24, rfl⟩
abbrev cc3_stg3_0 : Ref sig .tc := ⟨.vmem, 25, rfl⟩
abbrev cc3_stg4_0 : Ref sig .tc := ⟨.vmem, 26, rfl⟩
abbrev cc3_stg4_1 : Ref sig .tc := ⟨.vmem, 27, rfl⟩
abbrev cc3_stg5_0 : Ref sig .tc := ⟨.vmem, 28, rfl⟩
abbrev cc3_stg5_1 : Ref sig .tc := ⟨.vmem, 29, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc1_sem0_0 : DmaSem sig := 5
abbrev cc1_sem0_1 : DmaSem sig := 6
abbrev cc1_sem1_0 : DmaSem sig := 7
abbrev cc1_sem1_1 : DmaSem sig := 8
abbrev cc1_sem2_0 : DmaSem sig := 9
abbrev cc1_sem2_1 : DmaSem sig := 10
abbrev cc1_sem3_0 : DmaSem sig := 11
abbrev cc1_sem4_0 : DmaSem sig := 12
abbrev cc1_sem4_1 : DmaSem sig := 13
abbrev cc2_sem0_0 : DmaSem sig := 14
abbrev cc2_sem0_1 : DmaSem sig := 15
abbrev cc2_sem1_0 : DmaSem sig := 16
abbrev cc2_sem2_0 : DmaSem sig := 17
abbrev cc2_sem2_1 : DmaSem sig := 18
abbrev cc3_sem0_0 : DmaSem sig := 19
abbrev cc3_sem0_1 : DmaSem sig := 20
abbrev cc3_sem1_0 : DmaSem sig := 21
abbrev cc3_sem1_1 : DmaSem sig := 22
abbrev cc3_sem2_0 : DmaSem sig := 23
abbrev cc3_sem2_1 : DmaSem sig := 24
abbrev cc3_sem3_0 : DmaSem sig := 25
abbrev cc3_sem4_0 : DmaSem sig := 26
abbrev cc3_sem4_1 : DmaSem sig := 27
abbrev cc3_sem5_0 : DmaSem sig := 28
abbrev cc3_sem5_1 : DmaSem sig := 29

abbrev nD : Nat := 1
abbrev τ : Topo := Topo.v7x

variable {F : FTy → Type} [FloatOps F]

abbrev grid0 : Pipeline.Grid := ⟨1, ![25], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S2000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S128x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S2000x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨1, ![25], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S2000x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S2000x128 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 2 → Memref sig .tc .vmem S2000x1 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev stage1_3 : Fin 1 → Memref sig .tc .vmem S1x128 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 2 → Memref sig .tc .vmem S2000x128 .f32 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![true]

abbrev grid2 : Pipeline.Grid := ⟨1, ![25], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S2000x128 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S128x128 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 2 → Memref sig .tc .vmem S2000x128 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true]

abbrev grid3 : Pipeline.Grid := ⟨1, ![25], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_2 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_3 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_4 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_5 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 2 → Memref sig .tc .vmem S2000x128 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 2 → Memref sig .tc .vmem S2000x128 .f32 := fun | 0 => Memref.whole cc3_stg1_0 | 1 => Memref.whole cc3_stg1_1 | ⟨_ + 2, h⟩ => absurd h (Nat.not_lt.2 (Nat.le_add_left _ _))
abbrev sem3_1 : Fin 2 → DmaSem sig := fun | 0 => cc3_sem1_0 | 1 => cc3_sem1_1 | ⟨_ + 2, h⟩ => absurd h (Nat.not_lt.2 (Nat.le_add_left _ _))
abbrev reads3_1 : Fin grid3.rank → Bool := ![true]

abbrev stage3_2 : Fin 2 → Memref sig .tc .vmem S2000x1 .f32 := fun | 0 => Memref.whole cc3_stg2_0 | 1 => Memref.whole cc3_stg2_1 | ⟨_ + 2, h⟩ => absurd h (Nat.not_lt.2 (Nat.le_add_left _ _))
abbrev sem3_2 : Fin 2 → DmaSem sig := fun | 0 => cc3_sem2_0 | 1 => cc3_sem2_1 | ⟨_ + 2, h⟩ => absurd h (Nat.not_lt.2 (Nat.le_add_left _ _))
abbrev reads3_2 : Fin grid3.rank → Bool := ![true]

abbrev stage3_3 : Fin 1 → Memref sig .tc .vmem S1x128 .f32 := fun | 0 => Memref.whole cc3_stg3_0 | ⟨_ + 1, h⟩ => absurd h (Nat.not_lt.2 (Nat.le_add_left _ _))
abbrev sem3_3 : Fin 1 → DmaSem sig := fun | 0 => cc3_sem3_0 | ⟨_ + 1, h⟩ => absurd h (Nat.not_lt.2 (Nat.le_add_left _ _))
abbrev reads3_3 : Fin grid3.rank → Bool := ![false]

abbrev stage3_4 : Fin 2 → Memref sig .tc .vmem S2000x128 .f32 := fun | 0 => Memref.whole cc3_stg4_0 | 1 => Memref.whole cc3_stg4_1 | ⟨_ + 2, h⟩ => absurd h (Nat.not_lt.2 (Nat.le_add_left _ _))
abbrev sem3_4 : Fin 2 → DmaSem sig := fun | 0 => cc3_sem4_0 | 1 => cc3_sem4_1 | ⟨_ + 2, h⟩ => absurd h (Nat.not_lt.2 (Nat.le_add_left _ _))
abbrev reads3_4 : Fin grid3.rank → Bool := ![true]

abbrev stage3_5 : Fin 2 → Memref sig .tc .vmem S2000x128 .f32 := fun | 0 => Memref.whole cc3_stg5_0 | 1 => Memref.whole cc3_stg5_1 | ⟨_ + 2, h⟩ => absurd h (Nat.not_lt.2 (Nat.le_add_left _ _))
abbrev sem3_5 : Fin 2 → DmaSem sig := fun | 0 => cc3_sem5_0 | 1 => cc3_sem5_1 | ⟨_ + 2, h⟩ => absurd h (Nat.not_lt.2 (Nat.le_add_left _ _))
abbrev reads3_5 : Fin grid3.rank → Bool := ![true]

class Facts₀ : Prop where
  slices_S2x800000_S1x800000_0_0 : S2x800000.Slices ![0, 0] S1x800000
  shapeCasts_S1x800000_S800000 : S1x800000.ShapeCasts S800000
  slices_S2x800000_S1x800000_1_0 : S2x800000.Slices ![1, 0] S1x800000
  bcast_S_S800000 : S_.BroadcastsInDim S800000 (![] : Fin 0 → Fin S800000.rank)
  bcast_S_S50000 : S_.BroadcastsInDim S50000 (![] : Fin 0 → Fin S50000.rank)
  bcast_S800000_S800000x1_0 : S800000.BroadcastsInDim S800000x1 (![0] : Fin 1 → Fin S800000x1.rank)
  shapeCasts_S50000_S50000x1 : S50000.ShapeCasts S50000x1
  shapeCasts_S800000_S800000x1 : S800000.ShapeCasts S800000x1
  inb_S2000x128_S2000x128_0_0 : ∀ a, (![0, 0] : Fin 2 → Nat) a + S2000x128.size a ≤ S2000x128.size a
  h_S2000x128 : 0 < S2000x128.numel
  bitsLt_bf16_f32 : FTy.bits .bf16 < FTy.bits .f32
  inb_S128x128_S128x128_0_0 : ∀ a, (![0, 0] : Fin 2 → Nat) a + S128x128.size a ≤ S128x128.size a
  h_S128x128 : 0 < S128x128.numel
  bcast_S800000x1_S800000x128_0_1 : S800000x1.BroadcastsInDim S800000x128 (![0, 1] : Fin 2 → Fin S800000x128.rank)
  bcast_S_S50000x128 : S_.BroadcastsInDim S50000x128 (![] : Fin 0 → Fin S50000x128.rank)
  shapeCasts_S128_S1x128 : S128.ShapeCasts S1x128
  shapeCasts_S2000x128_S2000x128 : S2000x128.ShapeCasts S2000x128
  inb_S2000x1_S2000x1_0_0 : ∀ a, (![0, 0] : Fin 2 → Nat) a + S2000x1.size a ≤ S2000x1.size a
  h_S2000x1 : 0 < S2000x1.numel
  shapeCasts_S2000x1_S2000x1 : S2000x1.ShapeCasts S2000x1
  broadcasts_S2000x1_S2000x128 : S2000x1.Broadcasts S2000x128
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S2000x128 : S1x128.Broadcasts S2000x128
  scatter_S50000_S800000x1_S800000_n_0_0_1_wf : ScatterDims.WF S50000 S800000x1 S800000 [] [0] [0] 1
  gather_S50000_S800000x1_S800000_n_0_n_n_0_1_1_wf : GatherDims.WF S50000 S800000x1 S800000 [] [0] [] [0] [] 1 ![1]
  dot_S2000x128_S128x128_S2000x128_1_0_0_1_n_n_wf : DotDims.WF S2000x128 S128x128 S2000x128 [1] [0] [0] [1] [] []
  gather_S50000x128_S800000x1_S800000x128_1_0_n_n_0_1_1128_wf : GatherDims.WF S50000x128 S800000x1 S800000x128 [1] [0] [] [0] [] 1 ![1, 128]
  scatter_S50000x128_S800000x1_S800000x128_1_0_0_1_wf : ScatterDims.WF S50000x128 S800000x1 S800000x128 [1] [0] [0] 1
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2000x128.size a ≤ S50000x128.size a
  hwx0_0 : ∀ i : grid0.Coords, EltTy.bits .f32 = 32 ∨ (Rect.block (s := S50000x128) S2000x128.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S128x128.size a ≤ S128x128.size a
  hwx0_1 : ∀ i : grid0.Coords, EltTy.bits .f32 = 32 ∨ (Rect.block (s := S128x128) S128x128.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S2000x128.size a ≤ S50000x128.size a
  hwx0_2 : ∀ i : grid0.Coords, EltTy.bits .f32 = 32 ∨ (Rect.block (s := S50000x128) S2000x128.size (cc0_transform_2 i) (hinb0_2 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S2000x128.size a ≤ S50000x128.size a
  hwx1_0 : ∀ i : grid1.Coords, EltTy.bits .f32 = 32 ∨ (Rect.block (s := S50000x128) S2000x128.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S2000x128.size a ≤ S50000x128.size a
  hwx1_1 : ∀ i : grid1.Coords, EltTy.bits .f32 = 32 ∨ (Rect.block (s := S50000x128) S2000x128.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S2000x1.size a ≤ S50000x1.size a
  hwx1_2 : ∀ i : grid1.Coords, EltTy.bits .f32 = 32 ∨ (Rect.block (s := S50000x1) S2000x1.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S1x128.size a ≤ S1x128.size a
  hwx1_3 : ∀ i : grid1.Coords, EltTy.bits .f32 = 32 ∨ (Rect.block (s := S1x128) S1x128.size (cc1_transform_3 i) (hinb1_3 i)).WholeWords (EltTy.packing .f32)
  hstage1_4 : ∀ j, (stage1_4 j).IsWhole
  nbuf1_4 : grid1.bufCount reads1_4 false = 2
  hreads1_4 : ∀ i i' : grid1.Coords, (∀ a, reads1_4 a = true → i a = i' a) → cc1_transform_4 i = cc1_transform_4 i'
  hinb1_4 : ∀ (i : grid1.Coords) a, (cc1_transform_4 i a + 1) * S2000x128.size a ≤ S50000x128.size a
  hwx1_4 : ∀ i : grid1.Coords, EltTy.bits .f32 = 32 ∨ (Rect.block (s := S50000x128) S2000x128.size (cc1_transform_4 i) (hinb1_4 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S2000x128.size a ≤ S50000x128.size a
  hwx2_0 : ∀ i : grid2.Coords, EltTy.bits .f32 = 32 ∨ (Rect.block (s := S50000x128) S2000x128.size (cc2_transform_0 i) (hinb2_0 i)).WholeWords (EltTy.packing .f32)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S128x128.size a ≤ S128x128.size a
  hwx2_1 : ∀ i : grid2.Coords, EltTy.bits .f32 = 32 ∨ (Rect.block (s := S128x128) S128x128.size (cc2_transform_1 i) (hinb2_1 i)).WholeWords (EltTy.packing .f32)
  hstage2_2 : ∀ j, (stage2_2 j).IsWhole
  nbuf2_2 : grid2.bufCount reads2_2 false = 2
  hreads2_2 : ∀ i i' : grid2.Coords, (∀ a, reads2_2 a = true → i a = i' a) → cc2_transform_2 i = cc2_transform_2 i'
  hinb2_2 : ∀ (i : grid2.Coords) a, (cc2_transform_2 i a + 1) * S2000x128.size a ≤ S50000x128.size a
  hwx2_2 : ∀ i : grid2.Coords, EltTy.bits .f32 = 32 ∨ (Rect.block (s := S50000x128) S2000x128.size (cc2_transform_2 i) (hinb2_2 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S2000x128.size a ≤ S50000x128.size a
  hwx3_0 : ∀ i : grid3.Coords, EltTy.bits .f32 = 32 ∨ (Rect.block (s := S50000x128) S2000x128.size (cc3_transform_0 i) (hinb3_0 i)).WholeWords (EltTy.packing .f32)
  hstage3_1 : ∀ j, (stage3_1 j).IsWhole
  nbuf3_1 : grid3.bufCount reads3_1 false = 2
  hreads3_1 : ∀ i i' : grid3.Coords, (∀ a, reads3_1 a = true → i a = i' a) → cc3_transform_1 i = cc3_transform_1 i'
  hinb3_1 : ∀ (i : grid3.Coords) a, (cc3_transform_1 i a + 1) * S2000x128.size a ≤ S50000x128.size a
  hwx3_1 : ∀ i : grid3.Coords, EltTy.bits .f32 = 32 ∨ (Rect.block (s := S50000x128) S2000x128.size (cc3_transform_1 i) (hinb3_1 i)).WholeWords (EltTy.packing .f32)
  hstage3_2 : ∀ j, (stage3_2 j).IsWhole
  nbuf3_2 : grid3.bufCount reads3_2 false = 2
  hreads3_2 : ∀ i i' : grid3.Coords, (∀ a, reads3_2 a = true → i a = i' a) → cc3_transform_2 i = cc3_transform_2 i'
  hinb3_2 : ∀ (i : grid3.Coords) a, (cc3_transform_2 i a + 1) * S2000x1.size a ≤ S50000x1.size a
  hwx3_2 : ∀ i : grid3.Coords, EltTy.bits .f32 = 32 ∨ (Rect.block (s := S50000x1) S2000x1.size (cc3_transform_2 i) (hinb3_2 i)).WholeWords (EltTy.packing .f32)
  hstage3_3 : ∀ j, (stage3_3 j).IsWhole
  nbuf3_3 : grid3.bufCount reads3_3 true = 1
  hreads3_3 : ∀ i i' : grid3.Coords, (∀ a, reads3_3 a = true → i a = i' a) → cc3_transform_3 i = cc3_transform_3 i'
  hinb3_3 : ∀ (i : grid3.Coords) a, (cc3_transform_3 i a + 1) * S1x128.size a ≤ S1x128.size a
  hwx3_3 : ∀ i : grid3.Coords, EltTy.bits .f32 = 32 ∨ (Rect.block (s := S1x128) S1x128.size (cc3_transform_3 i) (hinb3_3 i)).WholeWords (EltTy.packing .f32)
  hstage3_4 : ∀ j, (stage3_4 j).IsWhole
  nbuf3_4 : grid3.bufCount reads3_4 false = 2
  hreads3_4 : ∀ i i' : grid3.Coords, (∀ a, reads3_4 a = true → i a = i' a) → cc3_transform_4 i = cc3_transform_4 i'
  hinb3_4 : ∀ (i : grid3.Coords) a, (cc3_transform_4 i a + 1) * S2000x128.size a ≤ S50000x128.size a
  hwx3_4 : ∀ i : grid3.Coords, EltTy.bits .f32 = 32 ∨ (Rect.block (s := S50000x128) S2000x128.size (cc3_transform_4 i) (hinb3_4 i)).WholeWords (EltTy.packing .f32)
  hstage3_5 : ∀ j, (stage3_5 j).IsWhole
  nbuf3_5 : grid3.bufCount reads3_5 false = 2
  hreads3_5 : ∀ i i' : grid3.Coords, (∀ a, reads3_5 a = true → i a = i' a) → cc3_transform_5 i = cc3_transform_5 i'
  hinb3_5 : ∀ (i : grid3.Coords) a, (cc3_transform_5 i a + 1) * S2000x128.size a ≤ S50000x128.size a
  hwx3_5 : ∀ i : grid3.Coords, EltTy.bits .f32 = 32 ∨ (Rect.block (s := S50000x128) S2000x128.size (cc3_transform_5 i) (hinb3_5 i)).WholeWords (EltTy.packing .f32)

variable [Facts₀]

def scatter_S50000_S800000x1_S800000_n_0_0_1 : ScatterDims S50000 S800000x1 S800000 where
  updateWindowDims := []
  insertedWindowDims := [0]
  scatterDimsToOperandDims := [0]
  indexVectorDim := 1
  wf := scatter_S50000_S800000x1_S800000_n_0_0_1_wf
def gather_S50000_S800000x1_S800000_n_0_n_n_0_1_1 : GatherDims S50000 S800000x1 S800000 where
  offsetDims := []
  collapsedSliceDims := [0]
  operandBatchingDims := []
  startIndicesBatchingDims := []
  startIndexMap := [0]
  indexVectorDim := 1
  sliceSizes := ![1]
  wf := gather_S50000_S800000x1_S800000_n_0_n_n_0_1_1_wf
def dot_S2000x128_S128x128_S2000x128_1_0_0_1_n_n : DotDims S2000x128 S128x128 S2000x128 where
  lhsContracting := [1]
  rhsContracting := [0]
  lhsNonContracting := [0]
  rhsNonContracting := [1]
  lhsBatch := []
  rhsBatch := []
  wf := dot_S2000x128_S128x128_S2000x128_1_0_0_1_n_n_wf
def gather_S50000x128_S800000x1_S800000x128_1_0_n_n_0_1_1128 : GatherDims S50000x128 S800000x1 S800000x128 where
  offsetDims := [1]
  collapsedSliceDims := [0]
  operandBatchingDims := []
  startIndicesBatchingDims := []
  startIndexMap := [0]
  indexVectorDim := 1
  sliceSizes := ![1, 128]
  wf := gather_S50000x128_S800000x1_S800000x128_1_0_n_n_0_1_1128_wf
def scatter_S50000x128_S800000x1_S800000x128_1_0_0_1 : ScatterDims S50000x128 S800000x1 S800000x128 where
  updateWindowDims := [1]
  insertedWindowDims := [0]
  scatterDimsToOperandDims := [0]
  indexVectorDim := 1
  wf := scatter_S50000x128_S800000x1_S800000x128_1_0_0_1_wf

abbrev win0_0 : Pipeline.Window sig grid0 :=
  Pipeline.Window.ofSpec (Memref.whole main_arg0) S2000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg2) S128x128.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v29) S2000x128.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_v41) S2000x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v29) S2000x128.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v12) S2000x1.size cc1_transform_2 reads1_2 false false 2 stage1_2 sem1_2
    hrank1 hreads1_2 hinb1_2 nbuf1_2 (Memref.isWhole_whole _) hwx1_2 hstage1_2

abbrev win1_3 : Pipeline.Window sig grid1 :=
  Pipeline.Window.ofSpec (Memref.whole main_v42) S1x128.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v43) S2000x128.size cc1_transform_4 reads1_4 true false 2 stage1_4 sem1_4
    hrank1 hreads1_4 hinb1_4 nbuf1_4 (Memref.isWhole_whole _) hwx1_4 hstage1_4

abbrev win1 : Fin 5 → Pipeline.Window sig grid1 := fun | 0 => win1_0 | 1 => win1_1 | 2 => win1_2 | 3 => win1_3 | 4 => win1_4 | ⟨_ + 5, h⟩ => absurd h (Nat.not_lt.2 (Nat.le_add_left _ _))
abbrev spec1 : Fin 5 → Pipeline.WinSpec sig grid1.rank := fun w => (win1 w).toWinSpec

abbrev win2_0 : Pipeline.Window sig grid2 :=
  Pipeline.Window.ofSpec (Memref.whole main_v43) S2000x128.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_arg4) S128x128.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_v44) S2000x128.size cc2_transform_2 reads2_2 true false 2 stage2_2 sem2_2
    hrank2 hreads2_2 hinb2_2 nbuf2_2 (Memref.isWhole_whole _) hwx2_2 hstage2_2

abbrev win2 : Fin 3 → Pipeline.Window sig grid2 := fun | 0 => win2_0 | 1 => win2_1 | 2 => win2_2 | ⟨_ + 3, h⟩ => absurd h (Nat.not_lt.2 (Nat.le_add_left _ _))
abbrev spec2 : Fin 3 → Pipeline.WinSpec sig grid2.rank := fun w => (win2 w).toWinSpec

abbrev win3_0 : Pipeline.Window sig grid3 :=
  Pipeline.Window.ofSpec (Memref.whole main_v56) S2000x128.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_v44) S2000x128.size cc3_transform_1 reads3_1 false false 2 stage3_1 sem3_1
    hrank3 hreads3_1 hinb3_1 nbuf3_1 (Memref.isWhole_whole _) hwx3_1 hstage3_1

abbrev win3_2 : Pipeline.Window sig grid3 :=
  Pipeline.Window.ofSpec (Memref.whole main_v12) S2000x1.size cc3_transform_2 reads3_2 false false 2 stage3_2 sem3_2
    hrank3 hreads3_2 hinb3_2 nbuf3_2 (Memref.isWhole_whole _) hwx3_2 hstage3_2

abbrev win3_3 : Pipeline.Window sig grid3 :=
  Pipeline.Window.ofSpec (Memref.whole main_v57) S1x128.size cc3_transform_3 reads3_3 false true 1 stage3_3 sem3_3
    hrank3 hreads3_3 hinb3_3 nbuf3_3 (Memref.isWhole_whole _) hwx3_3 hstage3_3

abbrev win3_4 : Pipeline.Window sig grid3 :=
  Pipeline.Window.ofSpec (Memref.whole main_arg0) S2000x128.size cc3_transform_4 reads3_4 false false 2 stage3_4 sem3_4
    hrank3 hreads3_4 hinb3_4 nbuf3_4 (Memref.isWhole_whole _) hwx3_4 hstage3_4

abbrev win3_5 : Pipeline.Window sig grid3 :=
  Pipeline.Window.ofSpec (Memref.whole main_v58) S2000x128.size cc3_transform_5 reads3_5 true false 2 stage3_5 sem3_5
    hrank3 hreads3_5 hinb3_5 nbuf3_5 (Memref.isWhole_whole _) hwx3_5 hstage3_5

abbrev win3 : Fin 6 → Pipeline.Window sig grid3 := fun | 0 => win3_0 | 1 => win3_1 | 2 => win3_2 | 3 => win3_3 | 4 => win3_4 | 5 => win3_5 | ⟨_ + 6, h⟩ => absurd h (Nat.not_lt.2 (Nat.le_add_left _ _))
abbrev spec3 : Fin 6 → Pipeline.WinSpec sig grid3.rank := fun w => (win3 w).toWinSpec

class Facts : Prop extends Facts₀ where

variable [Facts]
-- ==== ReferenceIdeal.lean ====
abbrev S50000x128 : Shape := ⟨2, ![50000, 128]⟩
abbrev S2x800000 : Shape := ⟨2, ![2, 800000]⟩
abbrev S128x128 : Shape := ⟨2, ![128, 128]⟩
abbrev S128 : Shape := ⟨1, ![128]⟩
abbrev S1x800000 : Shape := ⟨2, ![1, 800000]⟩
abbrev S800000 : Shape := ⟨1, ![800000]⟩
abbrev S_ : Shape := ⟨0, ![]⟩
abbrev S50000 : Shape := ⟨1, ![50000]⟩
abbrev S800000x1 : Shape := ⟨2, ![800000, 1]⟩
abbrev S800000x128 : Shape := ⟨2, ![800000, 128]⟩
abbrev S50000x1 : Shape := ⟨2, ![50000, 1]⟩
abbrev S1x128 : Shape := ⟨2, ![1, 128]⟩

abbrev nBuf : Space → Nat
  | .hbm => 125
  | .vmem => 0
  | .smem => 0
  | _ => 0

abbrev bufTy : (tb : Table) → Fin (tcTables nBuf tb) → BufTy
  | .hbm, ⟨0, _⟩ => ⟨S50000x128, .f32⟩
  | .hbm, ⟨1, _⟩ => ⟨S2x800000, .i32⟩
  | .hbm, ⟨2, _⟩ => ⟨S128x128, .f32⟩
  | .hbm, ⟨3, _⟩ => ⟨S128, .f32⟩
  | .hbm, ⟨4, _⟩ => ⟨S128x128, .f32⟩
  | .hbm, ⟨5, _⟩ => ⟨S128, .f32⟩
  | .hbm, ⟨6, _⟩ => ⟨S1x800000, .i32⟩
  | .hbm, ⟨7, _⟩ => ⟨S800000, .i32⟩
  | .hbm, ⟨8, _⟩ => ⟨S1x800000, .i32⟩
  | .hbm, ⟨9, _⟩ => ⟨S800000, .i32⟩
  | .hbm, ⟨10, _⟩ => ⟨S50000x128, .f32⟩
  | .hbm, ⟨11, _⟩ => ⟨S_, .f32⟩
  | .hbm, ⟨12, _⟩ => ⟨S800000, .f32⟩
  | .hbm, ⟨13, _⟩ => ⟨S_, .f32⟩
  | .hbm, ⟨14, _⟩ => ⟨S50000, .f32⟩
  | .hbm, ⟨15, _⟩ => ⟨S800000x1, .i32⟩
  | .hbm, ⟨16, _⟩ => ⟨S50000, .f32⟩
  | .hbm, ⟨17, _⟩ => ⟨S_, .f32⟩
  | .hbm, ⟨18, _⟩ => ⟨S50000, .f32⟩
  | .hbm, ⟨19, _⟩ => ⟨S50000, .f32⟩
  | .hbm, ⟨20, _⟩ => ⟨S50000, .f32⟩
  | .hbm, ⟨21, _⟩ => ⟨S_, .i32⟩
  | .hbm, ⟨22, _⟩ => ⟨S800000, .i32⟩
  | .hbm, ⟨23, _⟩ => ⟨S800000, .i1⟩
  | .hbm, ⟨24, _⟩ => ⟨S_, .i32⟩
  | .hbm, ⟨25, _⟩ => ⟨S800000, .i32⟩
  | .hbm, ⟨26, _⟩ => ⟨S800000, .i32⟩
  | .hbm, ⟨27, _⟩ => ⟨S800000, .i32⟩
  | .hbm, ⟨28, _⟩ => ⟨S800000x1, .i32⟩
  | .hbm, ⟨29, _⟩ => ⟨S800000, .f32⟩
  | .hbm, ⟨30, _⟩ => ⟨S_, .i32⟩
  | .hbm, ⟨31, _⟩ => ⟨S800000, .i32⟩
  | .hbm, ⟨32, _⟩ => ⟨S800000, .i1⟩
  | .hbm, ⟨33, _⟩ => ⟨S_, .i32⟩
  | .hbm, ⟨34, _⟩ => ⟨S800000, .i32⟩
  | .hbm, ⟨35, _⟩ => ⟨S800000, .i32⟩
  | .hbm, ⟨36, _⟩ => ⟨S800000, .i32⟩
  | .hbm, ⟨37, _⟩ => ⟨S800000x1, .i32⟩
  | .hbm, ⟨38, _⟩ => ⟨S800000, .f32⟩
  | .hbm, ⟨39, _⟩ => ⟨S800000, .f32⟩
  | .hbm, ⟨40, _⟩ => ⟨S_, .i32⟩
  | .hbm, ⟨41, _⟩ => ⟨S800000, .i32⟩
  | .hbm, ⟨42, _⟩ => ⟨S800000, .i1⟩
  | .hbm, ⟨43, _⟩ => ⟨S_, .i32⟩
  | .hbm, ⟨44, _⟩ => ⟨S800000, .i32⟩
  | .hbm, ⟨45, _⟩ => ⟨S800000, .i32⟩
  | .hbm, ⟨46, _⟩ => ⟨S800000, .i32⟩
  | .hbm, ⟨47, _⟩ => ⟨S800000x1, .i32⟩
  | .hbm, ⟨48, _⟩ => ⟨S800000x128, .f32⟩
  | .hbm, ⟨49, _⟩ => ⟨S800000x1, .f32⟩
  | .hbm, ⟨50, _⟩ => ⟨S800000x128, .f32⟩
  | .hbm, ⟨51, _⟩ => ⟨S800000x128, .f32⟩
  | .hbm, ⟨52, _⟩ => ⟨S_, .f32⟩
  | .hbm, ⟨53, _⟩ => ⟨S50000x128, .f32⟩
  | .hbm, ⟨54, _⟩ => ⟨S800000x1, .i32⟩
  | .hbm, ⟨55, _⟩ => ⟨S50000x128, .f32⟩
  | .hbm, ⟨56, _⟩ => ⟨S50000, .f32⟩
  | .hbm, ⟨57, _⟩ => ⟨S50000x1, .f32⟩
  | .hbm, ⟨58, _⟩ => ⟨S50000x128, .f32⟩
  | .hbm, ⟨59, _⟩ => ⟨S50000x128, .f32⟩
  | .hbm, ⟨60, _⟩ => ⟨S50000x128, .f32⟩
  | .hbm, ⟨61, _⟩ => ⟨S1x128, .f32⟩
  | .hbm, ⟨62, _⟩ => ⟨S50000x128, .f32⟩
  | .hbm, ⟨63, _⟩ => ⟨S50000x128, .f32⟩
  | .hbm, ⟨64, _⟩ => ⟨S_, .f32⟩
  | .hbm, ⟨65, _⟩ => ⟨S50000x128, .f32⟩
  | .hbm, ⟨66, _⟩ => ⟨S50000x128, .f32⟩
  | .hbm, ⟨67, _⟩ => ⟨S50000x128, .f32⟩
  | .hbm, ⟨68, _⟩ => ⟨S_, .f32⟩
  | .hbm, ⟨69, _⟩ => ⟨S800000, .f32⟩
  | .hbm, ⟨70, _⟩ => ⟨S_, .f32⟩
  | .hbm, ⟨71, _⟩ => ⟨S50000, .f32⟩
  | .hbm, ⟨72, _⟩ => ⟨S800000x1, .i32⟩
  | .hbm, ⟨73, _⟩ => ⟨S50000, .f32⟩
  | .hbm, ⟨74, _⟩ => ⟨S_, .f32⟩
  | .hbm, ⟨75, _⟩ => ⟨S50000, .f32⟩
  | .hbm, ⟨76, _⟩ => ⟨S50000, .f32⟩
  | .hbm, ⟨77, _⟩ => ⟨S50000, .f32⟩
  | .hbm, ⟨78, _⟩ => ⟨S_, .i32⟩
  | .hbm, ⟨79, _⟩ => ⟨S800000, .i32⟩
  | .hbm, ⟨80, _⟩ => ⟨S800000, .i1⟩
  | .hbm, ⟨81, _⟩ => ⟨S_, .i32⟩
  | .hbm, ⟨82, _⟩ => ⟨S800000, .i32⟩
  | .hbm, ⟨83, _⟩ => ⟨S800000, .i32⟩
  | .hbm, ⟨84, _⟩ => ⟨S800000, .i32⟩
  | .hbm, ⟨85, _⟩ => ⟨S800000x1, .i32⟩
  | .hbm, ⟨86, _⟩ => ⟨S800000, .f32⟩
  | .hbm, ⟨87, _⟩ => ⟨S_, .i32⟩
  | .hbm, ⟨88, _⟩ => ⟨S800000, .i32⟩
  | .hbm, ⟨89, _⟩ => ⟨S800000, .i1⟩
  | .hbm, ⟨90, _⟩ => ⟨S_, .i32⟩
  | .hbm, ⟨91, _⟩ => ⟨S800000, .i32⟩
  | .hbm, ⟨92, _⟩ => ⟨S800000, .i32⟩
  | .hbm, ⟨93, _⟩ => ⟨S800000, .i32⟩
  | .hbm, ⟨94, _⟩ => ⟨S800000x1, .i32⟩
  | .hbm, ⟨95, _⟩ => ⟨S800000, .f32⟩
  | .hbm, ⟨96, _⟩ => ⟨S800000, .f32⟩
  | .hbm, ⟨97, _⟩ => ⟨S_, .i32⟩
  | .hbm, ⟨98, _⟩ => ⟨S800000, .i32⟩
  | .hbm, ⟨99, _⟩ => ⟨S800000, .i1⟩
  | .hbm, ⟨100, _⟩ => ⟨S_, .i32⟩
  | .hbm, ⟨101, _⟩ => ⟨S800000, .i32⟩
  | .hbm, ⟨102, _⟩ => ⟨S800000, .i32⟩
  | .hbm, ⟨103, _⟩ => ⟨S800000, .i32⟩
  | .hbm, ⟨104, _⟩ => ⟨S800000x1, .i32⟩
  | .hbm, ⟨105, _⟩ => ⟨S800000x128, .f32⟩
  | .hbm, ⟨106, _⟩ => ⟨S800000x1, .f32⟩
  | .hbm, ⟨107, _⟩ => ⟨S800000x128, .f32⟩
  | .hbm, ⟨108, _⟩ => ⟨S800000x128, .f32⟩
  | .hbm, ⟨109, _⟩ => ⟨S_, .f32⟩
  | .hbm, ⟨110, _⟩ => ⟨S50000x128, .f32⟩
  | .hbm, ⟨111, _⟩ => ⟨S800000x1, .i32⟩
  | .hbm, ⟨112, _⟩ => ⟨S50000x128, .f32⟩
  | .hbm, ⟨113, _⟩ => ⟨S50000, .f32⟩
  | .hbm, ⟨114, _⟩ => ⟨S50000x1, .f32⟩
  | .hbm, ⟨115, _⟩ => ⟨S50000x128, .f32⟩
  | .hbm, ⟨116, _⟩ => ⟨S50000x128, .f32⟩
  | .hbm, ⟨117, _⟩ => ⟨S50000x128, .f32⟩
  | .hbm, ⟨118, _⟩ => ⟨S1x128, .f32⟩
  | .hbm, ⟨119, _⟩ => ⟨S50000x128, .f32⟩
  | .hbm, ⟨120, _⟩ => ⟨S50000x128, .f32⟩
  | .hbm, ⟨121, _⟩ => ⟨S50000x128, .f32⟩
  | .hbm, ⟨122, _⟩ => ⟨S_, .f32⟩
  | .hbm, ⟨123, _⟩ => ⟨S50000x128, .f32⟩
  | .hbm, ⟨124, _⟩ => ⟨S50000x128, .f32⟩
  | _, _ => ⟨S50000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst : Ref sig .tc := ⟨.hbm, 11, rfl⟩
abbrev main_v5 : Ref sig .tc := ⟨.hbm, 12, rfl⟩
abbrev main_cst_0 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_cst_1 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_c : Ref sig .tc := ⟨.hbm, 21, rfl⟩
abbrev main_v12 : Ref sig .tc := ⟨.hbm, 22, rfl⟩
abbrev main_v13 : Ref sig .tc := ⟨.hbm, 23, rfl⟩
abbrev main_c_2 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_c_3 : Ref sig .tc := ⟨.hbm, 30, rfl⟩
abbrev main_v19 : Ref sig .tc := ⟨.hbm, 31, rfl⟩
abbrev main_v20 : Ref sig .tc := ⟨.hbm, 32, rfl⟩
abbrev main_c_4 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩
abbrev main_c_5 : Ref sig .tc := ⟨.hbm, 40, rfl⟩
abbrev main_v27 : Ref sig .tc := ⟨.hbm, 41, rfl⟩
abbrev main_v28 : Ref sig .tc := ⟨.hbm, 42, rfl⟩
abbrev main_c_6 : Ref sig .tc := ⟨.hbm, 43, rfl⟩
abbrev main_v29 : Ref sig .tc := ⟨.hbm, 44, rfl⟩
abbrev main_v30 : Ref sig .tc := ⟨.hbm, 45, rfl⟩
abbrev main_v31 : Ref sig .tc := ⟨.hbm, 46, rfl⟩
abbrev main_v32 : Ref sig .tc := ⟨.hbm, 47, rfl⟩
abbrev main_v33 : Ref sig .tc := ⟨.hbm, 48, rfl⟩
abbrev main_v34 : Ref sig .tc := ⟨.hbm, 49, rfl⟩
abbrev main_v35 : Ref sig .tc := ⟨.hbm, 50, rfl⟩
abbrev main_v36 : Ref sig .tc := ⟨.hbm, 51, rfl⟩
abbrev main_cst_7 : Ref sig .tc := ⟨.hbm, 52, rfl⟩
abbrev main_v37 : Ref sig .tc := ⟨.hbm, 53, rfl⟩
abbrev main_v38 : Ref sig .tc := ⟨.hbm, 54, rfl⟩
abbrev main_v39 : Ref sig .tc := ⟨.hbm, 55, rfl⟩
abbrev main_v40 : Ref sig .tc := ⟨.hbm, 56, rfl⟩
abbrev main_v41 : Ref sig .tc := ⟨.hbm, 57, rfl⟩
abbrev main_v42 : Ref sig .tc := ⟨.hbm, 58, rfl⟩
abbrev main_v43 : Ref sig .tc := ⟨.hbm, 59, rfl⟩
abbrev main_v44 : Ref sig .tc := ⟨.hbm, 60, rfl⟩
abbrev main_v45 : Ref sig .tc := ⟨.hbm, 61, rfl⟩
abbrev main_v46 : Ref sig .tc := ⟨.hbm, 62, rfl⟩
abbrev main_v47 : Ref sig .tc := ⟨.hbm, 63, rfl⟩
abbrev main_call0_cst : Ref sig .tc := ⟨.hbm, 64, rfl⟩
abbrev main_call0_v0 : Ref sig .tc := ⟨.hbm, 65, rfl⟩
abbrev main_v48 : Ref sig .tc := ⟨.hbm, 66, rfl⟩
abbrev main_v49 : Ref sig .tc := ⟨.hbm, 67, rfl⟩
abbrev main_cst_8 : Ref sig .tc := ⟨.hbm, 68, rfl⟩
abbrev main_v50 : Ref sig .tc := ⟨.hbm, 69, rfl⟩
abbrev main_cst_9 : Ref sig .tc := ⟨.hbm, 70, rfl⟩
abbrev main_v51 : Ref sig .tc := ⟨.hbm, 71, rfl⟩
abbrev main_v52 : Ref sig .tc := ⟨.hbm, 72, rfl⟩
abbrev main_v53 : Ref sig .tc := ⟨.hbm, 73, rfl⟩
abbrev main_cst_10 : Ref sig .tc := ⟨.hbm, 74, rfl⟩
abbrev main_v54 : Ref sig .tc := ⟨.hbm, 75, rfl⟩
abbrev main_v55 : Ref sig .tc := ⟨.hbm, 76, rfl⟩
abbrev main_v56 : Ref sig .tc := ⟨.hbm, 77, rfl⟩
abbrev main_c_11 : Ref sig .tc := ⟨.hbm, 78, rfl⟩
abbrev main_v57 : Ref sig .tc := ⟨.hbm, 79, rfl⟩
abbrev main_v58 : Ref sig .tc := ⟨.hbm, 80, rfl⟩
abbrev main_c_12 : Ref sig .tc := ⟨.hbm, 81, rfl⟩
abbrev main_v59 : Ref sig .tc := ⟨.hbm, 82, rfl⟩
abbrev main_v60 : Ref sig .tc := ⟨.hbm, 83, rfl⟩
abbrev main_v61 : Ref sig .tc := ⟨.hbm, 84, rfl⟩
abbrev main_v62 : Ref sig .tc := ⟨.hbm, 85, rfl⟩
abbrev main_v63 : Ref sig .tc := ⟨.hbm, 86, rfl⟩
abbrev main_c_13 : Ref sig .tc := ⟨.hbm, 87, rfl⟩
abbrev main_v64 : Ref sig .tc := ⟨.hbm, 88, rfl⟩
abbrev main_v65 : Ref sig .tc := ⟨.hbm, 89, rfl⟩
abbrev main_c_14 : Ref sig .tc := ⟨.hbm, 90, rfl⟩
abbrev main_v66 : Ref sig .tc := ⟨.hbm, 91, rfl⟩
abbrev main_v67 : Ref sig .tc := ⟨.hbm, 92, rfl⟩
abbrev main_v68 : Ref sig .tc := ⟨.hbm, 93, rfl⟩
abbrev main_v69 : Ref sig .tc := ⟨.hbm, 94, rfl⟩
abbrev main_v70 : Ref sig .tc := ⟨.hbm, 95, rfl⟩
abbrev main_v71 : Ref sig .tc := ⟨.hbm, 96, rfl⟩
abbrev main_c_15 : Ref sig .tc := ⟨.hbm, 97, rfl⟩
abbrev main_v72 : Ref sig .tc := ⟨.hbm, 98, rfl⟩
abbrev main_v73 : Ref sig .tc := ⟨.hbm, 99, rfl⟩
abbrev main_c_16 : Ref sig .tc := ⟨.hbm, 100, rfl⟩
abbrev main_v74 : Ref sig .tc := ⟨.hbm, 101, rfl⟩
abbrev main_v75 : Ref sig .tc := ⟨.hbm, 102, rfl⟩
abbrev main_v76 : Ref sig .tc := ⟨.hbm, 103, rfl⟩
abbrev main_v77 : Ref sig .tc := ⟨.hbm, 104, rfl⟩
abbrev main_v78 : Ref sig .tc := ⟨.hbm, 105, rfl⟩
abbrev main_v79 : Ref sig .tc := ⟨.hbm, 106, rfl⟩
abbrev main_v80 : Ref sig .tc := ⟨.hbm, 107, rfl⟩
abbrev main_v81 : Ref sig .tc := ⟨.hbm, 108, rfl⟩
abbrev main_cst_17 : Ref sig .tc := ⟨.hbm, 109, rfl⟩
abbrev main_v82 : Ref sig .tc := ⟨.hbm, 110, rfl⟩
abbrev main_v83 : Ref sig .tc := ⟨.hbm, 111, rfl⟩
abbrev main_v84 : Ref sig .tc := ⟨.hbm, 112, rfl⟩
abbrev main_v85 : Ref sig .tc := ⟨.hbm, 113, rfl⟩
abbrev main_v86 : Ref sig .tc := ⟨.hbm, 114, rfl⟩
abbrev main_v87 : Ref sig .tc := ⟨.hbm, 115, rfl⟩
abbrev main_v88 : Ref sig .tc := ⟨.hbm, 116, rfl⟩
abbrev main_v89 : Ref sig .tc := ⟨.hbm, 117, rfl⟩
abbrev main_v90 : Ref sig .tc := ⟨.hbm, 118, rfl⟩
abbrev main_v91 : Ref sig .tc := ⟨.hbm, 119, rfl⟩
abbrev main_v92 : Ref sig .tc := ⟨.hbm, 120, rfl⟩
abbrev main_v93 : Ref sig .tc := ⟨.hbm, 121, rfl⟩
abbrev main_call1_cst : Ref sig .tc := ⟨.hbm, 122, rfl⟩
abbrev main_call1_v0 : Ref sig .tc := ⟨.hbm, 123, rfl⟩
abbrev main_v94 : Ref sig .tc := ⟨.hbm, 124, rfl⟩

abbrev nD : Nat := 1
abbrev τ : Topo := Topo.v7x

variable {F : FTy → Type} [FloatOps F]

class Facts₀ : Prop where
  slices_S2x800000_S1x800000_0_0 : S2x800000.Slices ![0, 0] S1x800000
  shapeCasts_S1x800000_S800000 : S1x800000.ShapeCasts S800000
  slices_S2x800000_S1x800000_1_0 : S2x800000.Slices ![1, 0] S1x800000
  bcast_S_S800000 : S_.BroadcastsInDim S800000 (![] : Fin 0 → Fin S800000.rank)
  bcast_S_S50000 : S_.BroadcastsInDim S50000 (![] : Fin 0 → Fin S50000.rank)
  bcast_S800000_S800000x1_0 : S800000.BroadcastsInDim S800000x1 (![0] : Fin 1 → Fin S800000x1.rank)
  bcast_S800000x1_S800000x128_0_1 : S800000x1.BroadcastsInDim S800000x128 (![0, 1] : Fin 2 → Fin S800000x128.rank)
  bcast_S_S50000x128 : S_.BroadcastsInDim S50000x128 (![] : Fin 0 → Fin S50000x128.rank)
  bcast_S50000_S50000x1_0 : S50000.BroadcastsInDim S50000x1 (![0] : Fin 1 → Fin S50000x1.rank)
  bcast_S50000x1_S50000x128_0_1 : S50000x1.BroadcastsInDim S50000x128 (![0, 1] : Fin 2 → Fin S50000x128.rank)
  bcast_S128_S1x128_1 : S128.BroadcastsInDim S1x128 (![1] : Fin 1 → Fin S1x128.rank)
  bcast_S1x128_S50000x128_0_1 : S1x128.BroadcastsInDim S50000x128 (![0, 1] : Fin 2 → Fin S50000x128.rank)
  dot_S50000x128_S128x128_S50000x128_1_0_0_1_n_n_wf : DotDims.WF S50000x128 S128x128 S50000x128 [1] [0] [0] [1] [] []
  scatter_S50000_S800000x1_S800000_n_0_0_1_wf : ScatterDims.WF S50000 S800000x1 S800000 [] [0] [0] 1
  gather_S50000_S800000x1_S800000_n_0_n_n_0_1_1_wf : GatherDims.WF S50000 S800000x1 S800000 [] [0] [] [0] [] 1 ![1]
  gather_S50000x128_S800000x1_S800000x128_1_0_n_n_0_1_1128_wf : GatherDims.WF S50000x128 S800000x1 S800000x128 [1] [0] [] [0] [] 1 ![1, 128]
  scatter_S50000x128_S800000x1_S800000x128_1_0_0_1_wf : ScatterDims.WF S50000x128 S800000x1 S800000x128 [1] [0] [0] 1

variable [Facts₀]

def dot_S50000x128_S128x128_S50000x128_1_0_0_1_n_n : DotDims S50000x128 S128x128 S50000x128 where
  lhsContracting := [1]
  rhsContracting := [0]
  lhsNonContracting := [0]
  rhsNonContracting := [1]
  lhsBatch := []
  rhsBatch := []
  wf := dot_S50000x128_S128x128_S50000x128_1_0_0_1_n_n_wf
def scatter_S50000_S800000x1_S800000_n_0_0_1 : ScatterDims S50000 S800000x1 S800000 where
  updateWindowDims := []
  insertedWindowDims := [0]
  scatterDimsToOperandDims := [0]
  indexVectorDim := 1
  wf := scatter_S50000_S800000x1_S800000_n_0_0_1_wf
def gather_S50000_S800000x1_S800000_n_0_n_n_0_1_1 : GatherDims S50000 S800000x1 S800000 where
  offsetDims := []
  collapsedSliceDims := [0]
  operandBatchingDims := []
  startIndicesBatchingDims := []
  startIndexMap := [0]
  indexVectorDim := 1
  sliceSizes := ![1]
  wf := gather_S50000_S800000x1_S800000_n_0_n_n_0_1_1_wf
def gather_S50000x128_S800000x1_S800000x128_1_0_n_n_0_1_1128 : GatherDims S50000x128 S800000x1 S800000x128 where
  offsetDims := [1]
  collapsedSliceDims := [0]
  operandBatchingDims := []
  startIndicesBatchingDims := []
  startIndexMap := [0]
  indexVectorDim := 1
  sliceSizes := ![1, 128]
  wf := gather_S50000x128_S800000x1_S800000x128_1_0_n_n_0_1_1128_wf
def scatter_S50000x128_S800000x1_S800000x128_1_0_0_1 : ScatterDims S50000x128 S800000x1 S800000x128 where
  updateWindowDims := [1]
  insertedWindowDims := [0]
  scatterDimsToOperandDims := [0]
  indexVectorDim := 1
  wf := scatter_S50000x128_S800000x1_S800000x128_1_0_0_1_wf

class Facts : Prop extends Facts₀ where

variable [Facts]
-- ==== Proof.Spec.lean ====
/-
  The mathematics of the two-layer graph convolution, index by index, over the literal shapes.

  A layer is: a dense product h = x · W (entry (r, c) is the sum over k of x(r, k) · W(k, c)); an aggregation of h
  over the edges (gather, scale, scatter-add: shared by both programs and never opened here); and a TAIL that
  combines, entry by entry, the aggregate a, the product h, the squared inverse-root degree of the row d(r, 0), the
  bias of the column b(0, c) — and, in the second layer, the residual x(r, c) — and clamps at zero:
    tail1 a h d b (r, c) = max ((a(r,c) + h(r,c) · d(r,0)) + b(0,c)) 0
    tail2 a h d b x (r, c) = max (((a(r,c) + h(r,c) · d(r,0)) + b(0,c)) + x(r,c)) 0.
  The tails are stated over any float instance (they use no law of arithmetic); the dense product over the extended reals.
-/
import proofs.«152891_j25975962206483_1_alg».proof.ReferenceIdeal
import Idealize.ShloMosaic.PureOps.Ideal.Laws
import Idealize.ShloMosaic.Lib.ValueIdx

noncomputable section

namespace Cert.Gcn

open Idealize.ShloMosaic Cert.ReferenceIdeal

variable {F : FTy → Type} [FloatOps F]

/-- The degree column's entry for row `r` of the node array: `(r, c) ↦ (r, 0)`. -/
abbrev rowOf (i : S50000x128.Idx) : S50000x1.Idx := fun a => match a with
  | ⟨0, _⟩ => ⟨(i 0).val, (i 0).isLt⟩
  | ⟨1, _⟩ => ⟨0, Nat.one_pos⟩

/-- The bias row's entry for column `c`: `(r, c) ↦ (0, c)`. -/
abbrev colOf (i : S50000x128.Idx) : S1x128.Idx := fun a => match a with
  | ⟨0, _⟩ => ⟨0, Nat.one_pos⟩
  | ⟨1, _⟩ => ⟨(i 1).val, (i 1).isLt⟩

/-- The left factor's entry of the `k`-th term of entry `(r, c)` of a product: `(r, k)`. -/
abbrev lhsAt (i : S50000x128.Idx) (k : Fin 128) : S50000x128.Idx := fun a => match a with
  | ⟨0, _⟩ => ⟨(i 0).val, (i 0).isLt⟩
  | ⟨1, _⟩ => ⟨k.val, k.isLt⟩

/-- The right factor's entry of the `k`-th term of entry `(r, c)`: `(k, c)`. -/
abbrev rhsAt (i : S50000x128.Idx) (k : Fin 128) : S128x128.Idx := fun a => match a with
  | ⟨0, _⟩ => ⟨k.val, k.isLt⟩
  | ⟨1, _⟩ => ⟨(i 1).val, (i 1).isLt⟩

/-- The dense product `x · W` over the extended reals: entry `(r, c)` is `∑ k, x(r, k) · W(k, c)`. -/
def dense (x : (⟨S50000x128, .f32⟩ : BufTy).Contents (Elt Ideal)) (w : (⟨S128x128, .f32⟩ : BufTy).Contents (Elt Ideal)) :
    (⟨S50000x128, .f32⟩ : BufTy).Contents (Elt Ideal) :=
  fun i => ∑ k : Fin 128, x (lhsAt i k) * w (rhsAt i k)

/-- The first layer's tail: `max ((a + h · d(row)) + b(col)) 0`, entry by entry. -/
def tail1 (a h : (⟨S50000x128, .f32⟩ : BufTy).Contents (Elt F)) (d : (⟨S50000x1, .f32⟩ : BufTy).Contents (Elt F))
    (b : (⟨S1x128, .f32⟩ : BufTy).Contents (Elt F)) : (⟨S50000x128, .f32⟩ : BufTy).Contents (Elt F) :=
  fun i => FloatOps.maximumf (FloatOps.addf (FloatOps.addf (a i) (FloatOps.mulf (h i) (d (rowOf i)))) (b (colOf i)))
    (FloatOps.ofBits .f32 0x00000000#32)

/-- The second layer's tail, with the residual: `max (((a + h · d(row)) + b(col)) + x) 0`, entry by entry. -/
def tail2 (a h : (⟨S50000x128, .f32⟩ : BufTy).Contents (Elt F)) (d : (⟨S50000x1, .f32⟩ : BufTy).Contents (Elt F))
    (b : (⟨S1x128, .f32⟩ : BufTy).Contents (Elt F)) (x : (⟨S50000x128, .f32⟩ : BufTy).Contents (Elt F)) :
    (⟨S50000x128, .f32⟩ : BufTy).Contents (Elt F) :=
  fun i => FloatOps.maximumf
    (FloatOps.addf (FloatOps.addf (FloatOps.addf (a i) (FloatOps.mulf (h i) (d (rowOf i)))) (b (colOf i))) (x i))
    (FloatOps.ofBits .f32 0x00000000#32)

end Cert.Gcn

end
-- ==== Proof.RefLayers.lean ====
/-
  The network both programs compute, as ONE function of the six argument arrays, and the reference's side of it.

  `aggOf e h` is a layer's aggregation over the edges exactly as both programs spell it on the host: gather the rows
  of `h` at the source nodes (a negative index wrapped by the node count), scale row `j` by edge `j`'s normalisation
  `dinv[src j] · dinv[dst j]`, and scatter-add the rows into the target nodes. It is a function of the edge array and
  of `h` alone and is never opened: the two programs agree on it because they agree on `h`.
  `net` is then: h₁ = x · W₁; o₁ = tail1 (aggOf e h₁) h₁ d b₁; h₂ = o₁ · W₂; result = tail2 (aggOf e h₂) h₂ d b₂ x,
  with d the column of squared inverse-root degrees and bᵢ the bias as a row.
-/
import proofs.«152891_j25975962206483_1_alg».proof.Proof.Gen.ReferenceIdeal.Read
import proofs.«152891_j25975962206483_1_alg».proof.Proof.Spec

noncomputable section

namespace Cert.Gcn

open Idealize.ShloMosaic Cert.ReferenceIdeal Cert.ReferenceIdeal.Read

variable {F : FTy → Type} [FloatOps F]

/-- One layer's aggregation over the edges: rows of `h` gathered at the sources, scaled by the edge normalisation,
    scatter-added into the targets. -/
def aggOf (e : (⟨S2x800000, .i32⟩ : BufTy).Contents (Elt F)) (h : (⟨S50000x128, .f32⟩ : BufTy).Contents (Elt F)) : (⟨S50000x128, .f32⟩ : BufTy).Contents (Elt F) :=
  Host.scatterAdd scatter_S50000x128_S800000x1_S800000x128_1_0_0_1 (val_main_v37 (F := F)) (val_main_v38 (F := F) e)
    (mulf (Host.gather gather_S50000x128_S800000x1_S800000x128_1_0_n_n_0_1_1128 h (val_main_v32 (F := F) e)) (val_main_v35 (F := F) e))

/-- The first layer: `relu (A·(x W₁) + (x W₁)·d + b₁)`. -/
def layer1 (x : (⟨S50000x128, .f32⟩ : BufTy).Contents (Elt Ideal)) (e : (⟨S2x800000, .i32⟩ : BufTy).Contents (Elt Ideal)) (w1 : (⟨S128x128, .f32⟩ : BufTy).Contents (Elt Ideal)) (b1 : (⟨S128, .f32⟩ : BufTy).Contents (Elt Ideal)) :
    (⟨S50000x128, .f32⟩ : BufTy).Contents (Elt Ideal) :=
  tail1 (aggOf e (dense x w1)) (dense x w1) (val_main_v41 (F := Ideal) e) (val_main_v45 (F := Ideal) b1)

/-- The network: the second layer over the first's output, with the residual `x`. -/
def net (x : (⟨S50000x128, .f32⟩ : BufTy).Contents (Elt Ideal)) (e : (⟨S2x800000, .i32⟩ : BufTy).Contents (Elt Ideal)) (w1 : (⟨S128x128, .f32⟩ : BufTy).Contents (Elt Ideal)) (b1 : (⟨S128, .f32⟩ : BufTy).Contents (Elt Ideal))
    (w2 : (⟨S128x128, .f32⟩ : BufTy).Contents (Elt Ideal)) (b2 : (⟨S128, .f32⟩ : BufTy).Contents (Elt Ideal)) : (⟨S50000x128, .f32⟩ : BufTy).Contents (Elt Ideal) :=
  tail2 (aggOf e (dense (layer1 x e w1 b1) w2)) (dense (layer1 x e w1 b1) w2) (val_main_v41 (F := Ideal) e) (val_main_v45 (F := Ideal) b2) x

/-! ### The second layer recomputes the degree, normalisation and index stages

The reference spells the second layer's degree column, edge normalisation and wrapped index columns out again under
new stage numbers. Each recomputed stage is, term for term, the stage of the first layer it repeats: the two unfold to
the same expression in the edge array, so each equation below holds by definition. They are stated stage by stage, each
resting on the ones before it, so that no comparison ever looks further than one stage deep. -/

section Recomputed

variable (e : (⟨S2x800000, .i32⟩ : BufTy).Contents (Elt F))

/-- The all-ones update of the degree count. -/
theorem v50_eq : val_main_v50 (F := F) = val_main_v5 := rfl
/-- The zero initial degree count. -/
theorem v51_eq : val_main_v51 (F := F) = val_main_v6 := rfl
/-- The target nodes as a column, for the degree count. -/
theorem v52_eq : val_main_v52 (F := F) e = val_main_v7 e := rfl
/-- The in-degree of every node. -/
theorem v53_eq : val_main_v53 (F := F) e = val_main_v8 e := by
  unfold val_main_v53 val_main_v8; rw [v50_eq, v51_eq, v52_eq]
/-- The self-loop's one. -/
theorem v54_eq : val_main_v54 (F := F) = val_main_v9 := rfl
/-- The degree with the self-loop. -/
theorem v55_eq : val_main_v55 (F := F) e = val_main_v10 e := by
  unfold val_main_v55 val_main_v10; rw [v53_eq, v54_eq]
/-- The inverse root of the degree. -/
theorem v56_eq : val_main_v56 (F := F) e = val_main_v11 e := by
  unfold val_main_v56 val_main_v11; rw [v55_eq]

/-- The source nodes, a negative index wrapped by the node count (for the normalisation's first factor). -/
theorem v61_eq : val_main_v61 (F := F) e = val_main_v16 e := rfl
theorem v62_eq : val_main_v62 (F := F) e = val_main_v17 e := by
  unfold val_main_v62 val_main_v17; rw [v61_eq]
/-- The inverse-root degree at each edge's source. -/
theorem v63_eq : val_main_v63 (F := F) e = val_main_v18 e := by
  unfold val_main_v63 val_main_v18; rw [v56_eq, v62_eq]

/-- The target nodes, wrapped likewise (for the normalisation's second factor). -/
theorem v68_eq : val_main_v68 (F := F) e = val_main_v23 e := rfl
theorem v69_eq : val_main_v69 (F := F) e = val_main_v24 e := by
  unfold val_main_v69 val_main_v24; rw [v68_eq]
/-- The inverse-root degree at each edge's target. -/
theorem v70_eq : val_main_v70 (F := F) e = val_main_v25 e := by
  unfold val_main_v70 val_main_v25; rw [v56_eq, v69_eq]
/-- The edge normalisation `dinv[src] · dinv[dst]`. -/
theorem v71_eq : val_main_v71 (F := F) e = val_main_v26 e := by
  unfold val_main_v71 val_main_v26; rw [v63_eq, v70_eq]

/-- The wrapped source nodes as a column: the rows the aggregation gathers. -/
theorem v76_eq : val_main_v76 (F := F) e = val_main_v31 e := rfl
theorem v77_eq : val_main_v77 (F := F) e = val_main_v32 e := by
  unfold val_main_v77 val_main_v32; rw [v76_eq]

/-- The edge normalisation as a column, and broadcast along the features. -/
theorem v79_eq : val_main_v79 (F := F) e = val_main_v34 e := by
  unfold val_main_v79 val_main_v34; rw [v71_eq]
theorem v80_eq : val_main_v80 (F := F) e = val_main_v35 e := by
  unfold val_main_v80 val_main_v35; rw [v79_eq]

/-- The zero array the aggregation adds into, and the target nodes as a column. -/
theorem v82_eq : val_main_v82 (F := F) = val_main_v37 := rfl
theorem v83_eq : val_main_v83 (F := F) e = val_main_v38 e := rfl

/-- The squared inverse-root degree, and the same as a column. -/
theorem v85_eq : val_main_v85 (F := F) e = val_main_v40 e := by
  unfold val_main_v85 val_main_v40; rw [v56_eq]
theorem v86_eq : val_main_v86 (F := F) e = val_main_v41 e := by
  unfold val_main_v86 val_main_v41; rw [v85_eq]

/-- The bias as a row is the same layout operation in both layers. -/
theorem v90_eq (b : (⟨S128, .f32⟩ : BufTy).Contents (Elt F)) : val_main_v90 (F := F) b = val_main_v45 b := rfl

end Recomputed

/-! ### The dense products -/

/-- The reference's first product is the dense product of the specification: the same sum, the two index maps of a
    term being those of the specification entry by entry. -/
theorem v4_dense (x : (⟨S50000x128, .f32⟩ : BufTy).Contents (Elt Ideal)) (w : (⟨S128x128, .f32⟩ : BufTy).Contents (Elt Ideal)) :
    val_main_v4 (F := Ideal) x w = dense x w := by
  funext i
  rw [val_main_v4_apply]
  rfl

/-- The second product is the same operation, applied to the first layer's output. -/
theorem v49_v4 (x0 : (⟨S50000x128, .f32⟩ : BufTy).Contents (Elt F)) (x1 : (⟨S2x800000, .i32⟩ : BufTy).Contents (Elt F)) (x2 : (⟨S128x128, .f32⟩ : BufTy).Contents (Elt F)) (x3 : (⟨S128, .f32⟩ : BufTy).Contents (Elt F)) (x4 : (⟨S128x128, .f32⟩ : BufTy).Contents (Elt F)) :
    val_main_v49 (F := F) x0 x1 x2 x3 x4 = val_main_v4 (val_main_v48 x0 x1 x2 x3) x4 := rfl

/-! ### The aggregations -/

/-- The first layer's scatter-add is the aggregation of the first product. -/
theorem v39_agg (x0 : (⟨S50000x128, .f32⟩ : BufTy).Contents (Elt F)) (x1 : (⟨S2x800000, .i32⟩ : BufTy).Contents (Elt F)) (x2 : (⟨S128x128, .f32⟩ : BufTy).Contents (Elt F)) :
    val_main_v39 (F := F) x0 x1 x2 = aggOf x1 (val_main_v4 x0 x2) := rfl

/-- The second layer's scatter-add is the aggregation of the second product: its index columns, normalisation and
    zero array are the first layer's. -/
theorem v84_agg (x0 : (⟨S50000x128, .f32⟩ : BufTy).Contents (Elt F)) (x1 : (⟨S2x800000, .i32⟩ : BufTy).Contents (Elt F)) (x2 : (⟨S128x128, .f32⟩ : BufTy).Contents (Elt F)) (x3 : (⟨S128, .f32⟩ : BufTy).Contents (Elt F)) (x4 : (⟨S128x128, .f32⟩ : BufTy).Contents (Elt F)) :
    val_main_v84 (F := F) x0 x1 x2 x3 x4 = aggOf x1 (val_main_v49 x0 x1 x2 x3 x4) := by
  unfold val_main_v84 val_main_v81 val_main_v78 aggOf
  rw [v82_eq, v83_eq, v77_eq, v80_eq]

/-! ### The tails -/

/-- Broadcasting the degree column along the features reads row `r`, column `0`. -/
theorem idx42_rowOf (i : S50000x128.Idx) : idx_main_v42 i = rowOf i := rfl
theorem idx87_rowOf (i : S50000x128.Idx) : idx_main_v87 i = rowOf i := rfl
/-- Broadcasting the bias row along the nodes reads row `0`, column `c`. -/
theorem idx46_colOf (i : S50000x128.Idx) : idx_main_v46 i = colOf i := rfl
theorem idx91_colOf (i : S50000x128.Idx) : idx_main_v91 i = colOf i := rfl

/-- The first layer's last stage is the first tail of its aggregate, product, degree column and bias row. -/
theorem v48_tail1 (x0 : (⟨S50000x128, .f32⟩ : BufTy).Contents (Elt F)) (x1 : (⟨S2x800000, .i32⟩ : BufTy).Contents (Elt F)) (x2 : (⟨S128x128, .f32⟩ : BufTy).Contents (Elt F)) (x3 : (⟨S128, .f32⟩ : BufTy).Contents (Elt F)) :
    val_main_v48 (F := F) x0 x1 x2 x3 = tail1 (val_main_v39 x0 x1 x2) (val_main_v4 x0 x2) (val_main_v41 x1) (val_main_v45 x3) := by
  funext i
  rw [val_main_v48_apply, val_main_v47_apply, val_main_v44_apply, val_main_v43_apply, val_main_v42_apply, val_main_v46_apply,
    val_main_call0_v0_apply, val_main_call0_cst_apply, idx42_rowOf, idx46_colOf]
  rfl

/-- The reference's last stage is the second tail, with the residual, of the second layer's aggregate and product. -/
theorem v94_tail2 (x0 : (⟨S50000x128, .f32⟩ : BufTy).Contents (Elt F)) (x1 : (⟨S2x800000, .i32⟩ : BufTy).Contents (Elt F)) (x2 : (⟨S128x128, .f32⟩ : BufTy).Contents (Elt F)) (x3 : (⟨S128, .f32⟩ : BufTy).Contents (Elt F)) (x4 : (⟨S128x128, .f32⟩ : BufTy).Contents (Elt F)) (x5 : (⟨S128, .f32⟩ : BufTy).Contents (Elt F)) :
    val_main_v94 (F := F) x0 x1 x2 x3 x4 x5
      = tail2 (val_main_v84 x0 x1 x2 x3 x4) (val_main_v49 x0 x1 x2 x3 x4) (val_main_v41 x1) (val_main_v45 x5) x0 := by
  funext i
  rw [val_main_v94_apply, val_main_v93_apply, val_main_v92_apply, val_main_v89_apply, val_main_v88_apply, val_main_v87_apply, val_main_v91_apply,
    val_main_call1_v0_apply, val_main_call1_cst_apply, idx87_rowOf, idx91_colOf, v86_eq, v90_eq]
  rfl

/-! ### The network -/

/-- The reference's first layer is `layer1`. -/
theorem v48_layer1 (x0 : (⟨S50000x128, .f32⟩ : BufTy).Contents (Elt Ideal)) (x1 : (⟨S2x800000, .i32⟩ : BufTy).Contents (Elt Ideal)) (x2 : (⟨S128x128, .f32⟩ : BufTy).Contents (Elt Ideal)) (x3 : (⟨S128, .f32⟩ : BufTy).Contents (Elt Ideal)) :
    val_main_v48 (F := Ideal) x0 x1 x2 x3 = layer1 x0 x1 x2 x3 := by
  rw [v48_tail1, v39_agg, v4_dense]
  rfl

/-- The reference's second product is the dense product of `layer1` with the second weights. -/
theorem v49_dense (x0 : (⟨S50000x128, .f32⟩ : BufTy).Contents (Elt Ideal)) (x1 : (⟨S2x800000, .i32⟩ : BufTy).Contents (Elt Ideal)) (x2 : (⟨S128x128, .f32⟩ : BufTy).Contents (Elt Ideal)) (x3 : (⟨S128, .f32⟩ : BufTy).Contents (Elt Ideal)) (x4 : (⟨S128x128, .f32⟩ : BufTy).Contents (Elt Ideal)) :
    val_main_v49 (F := Ideal) x0 x1 x2 x3 x4 = dense (layer1 x0 x1 x2 x3) x4 := by
  rw [v49_v4, v4_dense, v48_layer1]

/-- The reference's last stage is the network. -/
theorem ref_value (x0 : (⟨S50000x128, .f32⟩ : BufTy).Contents (Elt Ideal)) (x1 : (⟨S2x800000, .i32⟩ : BufTy).Contents (Elt Ideal)) (x2 : (⟨S128x128, .f32⟩ : BufTy).Contents (Elt Ideal)) (x3 : (⟨S128, .f32⟩ : BufTy).Contents (Elt Ideal))
    (x4 : (⟨S128x128, .f32⟩ : BufTy).Contents (Elt Ideal)) (x5 : (⟨S128, .f32⟩ : BufTy).Contents (Elt Ideal)) :
    val_main_v94 (F := Ideal) x0 x1 x2 x3 x4 x5 = net x0 x1 x2 x3 x4 x5 := by
  rw [v94_tail2, v84_agg, v49_dense]
  rfl

end Cert.Gcn

end
-- ==== Proof.Dense0.lean ====
/-
  The first dense product, x · W₁, as the first pallas_call leaves it: the 25 row blocks of 2000 rows tile the
  array, and block t holds rows 2000·t … 2000·t + 1999 of the product of the whole arrays.
-/
import proofs.«152891_j25975962206483_1_alg».proof.Proof.Gen.KernelIdeal.Frame
import proofs.«152891_j25975962206483_1_alg».proof.Proof.Spec
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

namespace Cert.KernelIdeal.Dense0

open Idealize.ShloMosaic Idealize.ShloMosaic.TcCoe Idealize.SL.Sem Cert.KernelIdeal Cert.KernelIdeal.Gen
open Idealize.ShloMosaic.Pipeline (Dat Cfg Window)

/-! ## The block's product at an index

  Inside one block the body multiplies the 2000 loaded rows by the whole 128 × 128 factor: entry (p, q) of the
  result is the sum over k of (row p, column k of the rows) times (row k, column q of the factor). -/

/-- The left factor's entry of the k-th term of entry (p, q) of a block's product: (p, k). -/
abbrev rowsAt (j : S2000x128.Idx) (k : Fin 128) : S2000x128.Idx := fun a => match a with
  | ⟨0, _⟩ => ⟨(j 0).val, (j 0).isLt⟩
  | ⟨1, _⟩ => ⟨k.val, k.isLt⟩

/-- The right factor's entry of the k-th term of entry (p, q): (k, q). -/
abbrev factorAt (j : S2000x128.Idx) (k : Fin 128) : S128x128.Idx := fun a => match a with
  | ⟨0, _⟩ => ⟨k.val, k.isLt⟩
  | ⟨1, _⟩ => ⟨(j 1).val, (j 1).isLt⟩

theorem lhs_block_0 (j : S2000x128.Idx) (q : dot_S2000x128_S128x128_S2000x128_1_0_0_1_n_n.contr.Idx) :
    (dot_S2000x128_S128x128_S2000x128_1_0_0_1_n_n.lhsIdx j q 0).val = (j 0).val := by
  unfold DotDims.lhsIdx
  rw [dif_neg (show ¬(0 : Fin S2000x128.rank) ∈ dot_S2000x128_S128x128_S2000x128_1_0_0_1_n_n.lhsBatch by decide), dif_pos (show (0 : Fin S2000x128.rank) ∈ dot_S2000x128_S128x128_S2000x128_1_0_0_1_n_n.lhsNonContracting by decide)]
  rfl
theorem lhs_block_1 (j : S2000x128.Idx) (q : dot_S2000x128_S128x128_S2000x128_1_0_0_1_n_n.contr.Idx) :
    (dot_S2000x128_S128x128_S2000x128_1_0_0_1_n_n.lhsIdx j q 1).val = (q ⟨0, by decide⟩).val :=
  dot_S2000x128_S128x128_S2000x128_1_0_0_1_n_n.lhsIdx_val_of_single rfl j q
theorem rhs_block_0 (j : S2000x128.Idx) (q : dot_S2000x128_S128x128_S2000x128_1_0_0_1_n_n.contr.Idx) :
    (dot_S2000x128_S128x128_S2000x128_1_0_0_1_n_n.rhsIdx j q 0).val = (q ⟨0, by decide⟩).val :=
  dot_S2000x128_S128x128_S2000x128_1_0_0_1_n_n.rhsIdx_val_of_single rfl j q
theorem rhs_block_1 (j : S2000x128.Idx) (q : dot_S2000x128_S128x128_S2000x128_1_0_0_1_n_n.contr.Idx) :
    (dot_S2000x128_S128x128_S2000x128_1_0_0_1_n_n.rhsIdx j q 1).val = (j 1).val := by
  unfold DotDims.rhsIdx
  rw [dif_neg (show ¬(1 : Fin S128x128.rank) ∈ dot_S2000x128_S128x128_S2000x128_1_0_0_1_n_n.rhsBatch by decide), dif_pos (show (1 : Fin S128x128.rank) ∈ dot_S2000x128_S128x128_S2000x128_1_0_0_1_n_n.rhsNonContracting by decide)]
  rfl

/-- Over the extended reals the narrowing of the two operands is the identity and the product accumulates into zero,
    so the block's result at (p, q) is the plain sum over k of rows(p, k) · factor(k, q). -/
theorem block_product_apply (x0 : Vec Ideal S2000x128 .f32) (x1 : Vec Ideal S128x128 .f32) (j : S2000x128.Idx) :
    k0_pay1 (F := Ideal) x0 x1 j = ∑ k : Fin 128, x0 (rowsAt j k) * x1 (factorAt j k) := by
  unfold k0_pay1
  show FloatOps.matmul dot_S2000x128_S128x128_S2000x128_1_0_0_1_n_n none (truncf (F := Ideal) .bf16 x0 bitsLt_bf16_f32)
    (truncf (F := Ideal) .bf16 x1 bitsLt_bf16_f32) (constant (F := Ideal) S2000x128 .f32 0x00000000#32) j = _
  rw [Ideal.matmul_constant_zero_apply, ← Equiv.sum_comp (ValueIdx.contrEquiv1 dot_S2000x128_S128x128_S2000x128_1_0_0_1_n_n 128 rfl rfl).symm]
  refine Finset.sum_congr rfl fun k _ => ?_
  have hk := ValueIdx.contrEquiv1_symm_val dot_S2000x128_S128x128_S2000x128_1_0_0_1_n_n 128 rfl rfl k
  have el : dot_S2000x128_S128x128_S2000x128_1_0_0_1_n_n.lhsIdx j ((ValueIdx.contrEquiv1 dot_S2000x128_S128x128_S2000x128_1_0_0_1_n_n 128 rfl rfl).symm k) = rowsAt j k := funext fun a => Fin.ext (by
    match a with
    | ⟨0, _⟩ => exact lhs_block_0 _ _
    | ⟨1, _⟩ => exact (lhs_block_1 _ _).trans hk)
  have er : dot_S2000x128_S128x128_S2000x128_1_0_0_1_n_n.rhsIdx j ((ValueIdx.contrEquiv1 dot_S2000x128_S128x128_S2000x128_1_0_0_1_n_n 128 rfl rfl).symm k) = factorAt j k := funext fun a => Fin.ext (by
    match a with
    | ⟨0, _⟩ => exact (rhs_block_0 _ _).trans hk
    | ⟨1, _⟩ => exact rhs_block_1 _ _)
  show x0 (dot_S2000x128_S128x128_S2000x128_1_0_0_1_n_n.lhsIdx j _) * x1 (dot_S2000x128_S128x128_S2000x128_1_0_0_1_n_n.rhsIdx j _) = _
  rw [el, er]

/-! ## From the blocks to the array

  Point t's windows: rows 2000·t … 2000·t + 1999 of the left array, the whole factor, and the same rows of the
  output. So what point t writes back is rows 2000·t … of the product of the whole arrays, and the 25 blocks
  tile the output. -/

theorem zeros2 : (![0, 0] : Fin 2 → Nat) = fun _ => 0 := funext fun a => by fin_cases a <;> rfl

/-- The printed index maps, decided over the grid: the rows' window and the output's window sit at block (t, 0),
    the factor's at block (0, 0). -/
theorem block_index : ∀ t : Fin cfg0.N, win0_0.index t (0 : Fin 2) = t.val
    ∧ win0_0.index t (1 : Fin 2) = 0
    ∧ win0_1.index t (0 : Fin 2) = 0
    ∧ win0_1.index t (1 : Fin 2) = 0
    ∧ win0_2.index t (0 : Fin 2) = t.val
    ∧ win0_2.index t (1 : Fin 2) = 0 :=
  (by decide +kernel : ∀ t : Fin grid0.N, _)

/-- Every one of the 25 row blocks is some point's. -/
theorem point_of_block : ∀ q : Fin 25, ∃ t : Fin cfg0.N, win0_2.index t (0 : Fin 2) = q.val ∧ win0_2.index t (1 : Fin 2) = 0 :=
  (by decide +kernel : ∀ q : Fin 25, ∃ t : Fin grid0.N, win0_2.index t (0 : Fin 2) = q.val ∧ win0_2.index t (1 : Fin 2) = 0)

/-- The dense product read at an index: the sum over k of x(r, k) · W(k, c). -/
theorem dense_apply (x : (⟨S50000x128, .f32⟩ : BufTy).Contents (Elt Ideal)) (w : (⟨S128x128, .f32⟩ : BufTy).Contents (Elt Ideal))
    (i : S50000x128.Idx) :
    Cert.Gcn.dense x w i = ∑ k : Fin 128, x (Cert.Gcn.lhsAt i k) * w (Cert.Gcn.rhsAt i k) := rfl

variable (V : (c : Dev nD) → (b : Ref sig .tc) → Buf (Elt Ideal) ((c : Thread nD τ).loc b))

/-- The rows' block at point t, read at (p, k), is the left array at (2000·t + p, k). -/
theorem rows_read (c : Dev nD) (t : Fin cfg0.N) (y : S2000x128.Idx) (i : S50000x128.Idx)
    (h0 : (i 0).val = t.val * 2000 + (y 0).val) (h1 : (i 1).val = (y 1).val) :
    iblk0 V c 0 t y = V c main_arg0 i := by
  obtain ⟨e0, e1, -, -, -, -⟩ := block_index t
  show V c main_arg0 (((cfg0.win 0).blk t).view.emb y) = V c main_arg0 i
  refine congrArg (V c main_arg0) (funext fun a => Fin.ext ?_)
  match a with
  | ⟨0, _⟩ => show win0_0.index t (0 : Fin 2) * 2000 + 1 * (y 0).val = (i 0).val; omega
  | ⟨1, _⟩ => show win0_0.index t (1 : Fin 2) * 128 + 1 * (y 1).val = (i 1).val; omega

/-- The factor's block at every point is the factor itself. -/
theorem factor_read (c : Dev nD) (t : Fin cfg0.N) (y : S128x128.Idx) (i : S128x128.Idx)
    (h0 : (i 0).val = (y 0).val) (h1 : (i 1).val = (y 1).val) :
    iblk0 V c 1 t y = V c main_arg2 i := by
  obtain ⟨-, -, e2, e3, -, -⟩ := block_index t
  show V c main_arg2 (((cfg0.win 1).blk t).view.emb y) = V c main_arg2 i
  refine congrArg (V c main_arg2) (funext fun a => Fin.ext ?_)
  match a with
  | ⟨0, _⟩ => show win0_1.index t (0 : Fin 2) * 128 + 1 * (y 0).val = (i 0).val; omega
  | ⟨1, _⟩ => show win0_1.index t (1 : Fin 2) * 128 + 1 * (y 1).val = (i 1).val; omega

/-- What point t writes back is block t of the dense product of the arrays as the call finds them. -/
theorem flushed_eq (c : Dev nD) (t : Fin cfg0.N) :
    (dat0 V c).flushed 2 t
      = ((cfg0.win 2).blk t).view.read (Elt Ideal) (Cert.Gcn.dense (V c main_arg0) (V c main_arg2)) := by
  show (cfg0.win 2).cut (grid0.coords t) ((dat0 V c).after 2 t) = _
  rw [after0_2]
  unfold out0_2
  rw [View.canon_unit_zero zeros2]
  simp only [View.ld_unit_zero (S := S2000x128) zeros2, View.ld_unit_zero (S := S128x128) zeros2]
  obtain ⟨-, -, -, -, e4, e5⟩ := block_index t
  funext j
  show k0_pay1 (F := Ideal) (iblk0 V c 0 t) (iblk0 V c 1 t) j
    = Cert.Gcn.dense (V c main_arg0) (V c main_arg2) (((cfg0.win 2).blk t).view.emb j)
  rw [block_product_apply, dense_apply]
  refine Finset.sum_congr rfl fun k _ => ?_
  rw [rows_read V c t (rowsAt j k) (Cert.Gcn.lhsAt (((cfg0.win 2).blk t).view.emb j) k)
      (by show win0_2.index t (0 : Fin 2) * 2000 + 1 * (j 0).val = t.val * 2000 + (j 0).val; omega) rfl,
    factor_read V c t (factorAt j k) (Cert.Gcn.rhsAt (((cfg0.win 2).blk t).view.emb j) k) rfl
      (by show win0_2.index t (1 : Fin 2) * 128 + 1 * (j 1).val = (j 1).val; omega)]

/-- An index of the output is in point t's block iff each coordinate is in the block's range on its axis. -/
theorem mem_blk (t : Fin cfg0.N) (i : S50000x128.Idx) :
    i ∈ ((cfg0.win 2).blk t).view.set ↔ ∀ a : Fin 2, win0_2.index t a * S2000x128.size a ≤ (i a).val
      ∧ (i a).val < win0_2.index t a * S2000x128.size a + S2000x128.size a := by
  show i ∈ ((View.whole main_v29).slice (win0_2.rect t)).set ↔ _
  rw [View.set_slice_whole, Rect.mem_set_unit]
  exact Iff.rfl

/-- Row r of the output is in the block of point r / 2000: the blocks cover the array. -/
theorem cover (i : S50000x128.Idx) :
    ∃ t : Fin cfg0.N, (cfg0.win 2).flush t = true ∧ i ∈ ((cfg0.win 2).blk t).view.set := by
  have hi0 : (i 0).val < 50000 := (i 0).isLt
  have hi1 : (i 1).val < 128 := (i 1).isLt
  obtain ⟨t, ht0, ht1⟩ := point_of_block ⟨(i 0).val / 2000, by omega⟩
  have q0 : win0_2.index t (0 : Fin 2) = (i 0).val / 2000 := ht0
  refine ⟨t, flush0_2 t, ?_⟩
  rw [mem_blk]
  intro a
  match a with
  | ⟨0, _⟩ => show win0_2.index t (0 : Fin 2) * 2000 ≤ (i 0).val ∧ (i 0).val < win0_2.index t (0 : Fin 2) * 2000 + 2000; omega
  | ⟨1, _⟩ => show win0_2.index t (1 : Fin 2) * 128 ≤ (i 1).val ∧ (i 1).val < win0_2.index t (1 : Fin 2) * 128 + 128; omega

/-- The array the first pallas_call writes ends at the dense product of the arrays it was entered with. -/
theorem final0 (V : (c : Dev nD) → (b : Ref sig .tc) → Buf (Elt Ideal) ((c : Thread nD τ).loc b)) (c : Dev nD) :
    (dat0 V c).arrAt 2 cfg0.N = Cert.Gcn.dense (V c main_arg0) (V c main_arg2) :=
  (dat0 V c).arrAt_eq_of_cover 2 _ (fun t _ => flushed_eq V c t) cover

end Cert.KernelIdeal.Dense0

end
-- ==== Proof.Dense2.lean ====
/-
  The second dense product, o₁ · W₂, as the third pallas_call leaves it: the 25 row blocks of 2000 rows tile the
  array, and block t holds rows 2000·t … 2000·t + 1999 of the product of the whole arrays.
-/
import proofs.«152891_j25975962206483_1_alg».proof.Proof.Gen.KernelIdeal.Frame
import proofs.«152891_j25975962206483_1_alg».proof.Proof.Spec
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

namespace Cert.KernelIdeal.Dense2

open Idealize.ShloMosaic Idealize.ShloMosaic.TcCoe Idealize.SL.Sem Cert.KernelIdeal Cert.KernelIdeal.Gen
open Idealize.ShloMosaic.Pipeline (Dat Cfg Window)

/-! ## The block's product at an index

  Inside one block the body multiplies the 2000 loaded rows by the whole 128 × 128 factor: entry (p, q) of the
  result is the sum over k of (row p, column k of the rows) times (row k, column q of the factor). -/

/-- The left factor's entry of the k-th term of entry (p, q) of a block's product: (p, k). -/
abbrev rowsAt (j : S2000x128.Idx) (k : Fin 128) : S2000x128.Idx := fun a => match a with
  | ⟨0, _⟩ => ⟨(j 0).val, (j 0).isLt⟩
  | ⟨1, _⟩ => ⟨k.val, k.isLt⟩

/-- The right factor's entry of the k-th term of entry (p, q): (k, q). -/
abbrev factorAt (j : S2000x128.Idx) (k : Fin 128) : S128x128.Idx := fun a => match a with
  | ⟨0, _⟩ => ⟨k.val, k.isLt⟩
  | ⟨1, _⟩ => ⟨(j 1).val, (j 1).isLt⟩

theorem lhs_block_0 (j : S2000x128.Idx) (q : dot_S2000x128_S128x128_S2000x128_1_0_0_1_n_n.contr.Idx) :
    (dot_S2000x128_S128x128_S2000x128_1_0_0_1_n_n.lhsIdx j q 0).val = (j 0).val := by
  unfold DotDims.lhsIdx
  rw [dif_neg (show ¬(0 : Fin S2000x128.rank) ∈ dot_S2000x128_S128x128_S2000x128_1_0_0_1_n_n.lhsBatch by decide), dif_pos (show (0 : Fin S2000x128.rank) ∈ dot_S2000x128_S128x128_S2000x128_1_0_0_1_n_n.lhsNonContracting by decide)]
  rfl
theorem lhs_block_1 (j : S2000x128.Idx) (q : dot_S2000x128_S128x128_S2000x128_1_0_0_1_n_n.contr.Idx) :
    (dot_S2000x128_S128x128_S2000x128_1_0_0_1_n_n.lhsIdx j q 1).val = (q ⟨0, by decide⟩).val :=
  dot_S2000x128_S128x128_S2000x128_1_0_0_1_n_n.lhsIdx_val_of_single rfl j q
theorem rhs_block_0 (j : S2000x128.Idx) (q : dot_S2000x128_S128x128_S2000x128_1_0_0_1_n_n.contr.Idx) :
    (dot_S2000x128_S128x128_S2000x128_1_0_0_1_n_n.rhsIdx j q 0).val = (q ⟨0, by decide⟩).val :=
  dot_S2000x128_S128x128_S2000x128_1_0_0_1_n_n.rhsIdx_val_of_single rfl j q
theorem rhs_block_1 (j : S2000x128.Idx) (q : dot_S2000x128_S128x128_S2000x128_1_0_0_1_n_n.contr.Idx) :
    (dot_S2000x128_S128x128_S2000x128_1_0_0_1_n_n.rhsIdx j q 1).val = (j 1).val := by
  unfold DotDims.rhsIdx
  rw [dif_neg (show ¬(1 : Fin S128x128.rank) ∈ dot_S2000x128_S128x128_S2000x128_1_0_0_1_n_n.rhsBatch by decide), dif_pos (show (1 : Fin S128x128.rank) ∈ dot_S2000x128_S128x128_S2000x128_1_0_0_1_n_n.rhsNonContracting by decide)]
  rfl

/-- Over the extended reals the reshape to the same shape and the narrowing of the two operands are the identity and
    the product accumulates into zero, so the block's result at (p, q) is the plain sum over k of rows(p, k) · factor(k, q). -/
theorem block_product_apply (x0 : Vec Ideal S2000x128 .f32) (x1 : Vec Ideal S128x128 .f32) (j : S2000x128.Idx) :
    k2_pay1 (F := Ideal) x0 x1 j = ∑ k : Fin 128, x0 (rowsAt j k) * x1 (factorAt j k) := by
  unfold k2_pay1
  show FloatOps.matmul dot_S2000x128_S128x128_S2000x128_1_0_0_1_n_n none (truncf (F := Ideal) .bf16 (shapeCast S2000x128 x0 shapeCasts_S2000x128_S2000x128) bitsLt_bf16_f32)
    (truncf (F := Ideal) .bf16 x1 bitsLt_bf16_f32) (constant (F := Ideal) S2000x128 .f32 0x00000000#32) j = _
  rw [shapeCast_self, Ideal.matmul_constant_zero_apply, ← Equiv.sum_comp (ValueIdx.contrEquiv1 dot_S2000x128_S128x128_S2000x128_1_0_0_1_n_n 128 rfl rfl).symm]
  refine Finset.sum_congr rfl fun k _ => ?_
  have hk := ValueIdx.contrEquiv1_symm_val dot_S2000x128_S128x128_S2000x128_1_0_0_1_n_n 128 rfl rfl k
  have el : dot_S2000x128_S128x128_S2000x128_1_0_0_1_n_n.lhsIdx j ((ValueIdx.contrEquiv1 dot_S2000x128_S128x128_S2000x128_1_0_0_1_n_n 128 rfl rfl).symm k) = rowsAt j k := funext fun a => Fin.ext (by
    match a with
    | ⟨0, _⟩ => exact lhs_block_0 _ _
    | ⟨1, _⟩ => exact (lhs_block_1 _ _).trans hk)
  have er : dot_S2000x128_S128x128_S2000x128_1_0_0_1_n_n.rhsIdx j ((ValueIdx.contrEquiv1 dot_S2000x128_S128x128_S2000x128_1_0_0_1_n_n 128 rfl rfl).symm k) = factorAt j k := funext fun a => Fin.ext (by
    match a with
    | ⟨0, _⟩ => exact (rhs_block_0 _ _).trans hk
    | ⟨1, _⟩ => exact rhs_block_1 _ _)
  show x0 (dot_S2000x128_S128x128_S2000x128_1_0_0_1_n_n.lhsIdx j _) * x1 (dot_S2000x128_S128x128_S2000x128_1_0_0_1_n_n.rhsIdx j _) = _
  rw [el, er]

/-! ## From the blocks to the array

  Point t's windows: rows 2000·t … 2000·t + 1999 of the left array, the whole factor, and the same rows of the
  output. So what point t writes back is rows 2000·t … of the product of the whole arrays, and the 25 blocks
  tile the output. -/

theorem zeros2 : (![0, 0] : Fin 2 → Nat) = fun _ => 0 := funext fun a => by fin_cases a <;> rfl

/-- The printed index maps, decided over the grid: the rows' window and the output's window sit at block (t, 0),
    the factor's at block (0, 0). -/
theorem block_index : ∀ t : Fin cfg2.N, win2_0.index t (0 : Fin 2) = t.val
    ∧ win2_0.index t (1 : Fin 2) = 0
    ∧ win2_1.index t (0 : Fin 2) = 0
    ∧ win2_1.index t (1 : Fin 2) = 0
    ∧ win2_2.index t (0 : Fin 2) = t.val
    ∧ win2_2.index t (1 : Fin 2) = 0 :=
  (by decide +kernel : ∀ t : Fin grid2.N, _)

/-- Every one of the 25 row blocks is some point's. -/
theorem point_of_block : ∀ q : Fin 25, ∃ t : Fin cfg2.N, win2_2.index t (0 : Fin 2) = q.val ∧ win2_2.index t (1 : Fin 2) = 0 :=
  (by decide +kernel : ∀ q : Fin 25, ∃ t : Fin grid2.N, win2_2.index t (0 : Fin 2) = q.val ∧ win2_2.index t (1 : Fin 2) = 0)

/-- The dense product read at an index: the sum over k of x(r, k) · W(k, c). -/
theorem dense_apply (x : (⟨S50000x128, .f32⟩ : BufTy).Contents (Elt Ideal)) (w : (⟨S128x128, .f32⟩ : BufTy).Contents (Elt Ideal))
    (i : S50000x128.Idx) :
    Cert.Gcn.dense x w i = ∑ k : Fin 128, x (Cert.Gcn.lhsAt i k) * w (Cert.Gcn.rhsAt i k) := rfl

variable (V : (c : Dev nD) → (b : Ref sig .tc) → Buf (Elt Ideal) ((c : Thread nD τ).loc b))

/-- The rows' block at point t, read at (p, k), is the left array at (2000·t + p, k). -/
theorem rows_read (c : Dev nD) (t : Fin cfg2.N) (y : S2000x128.Idx) (i : S50000x128.Idx)
    (h0 : (i 0).val = t.val * 2000 + (y 0).val) (h1 : (i 1).val = (y 1).val) :
    iblk2 V c 0 t y = V c main_v43 i := by
  obtain ⟨e0, e1, -, -, -, -⟩ := block_index t
  show V c main_v43 (((cfg2.win 0).blk t).view.emb y) = V c main_v43 i
  refine congrArg (V c main_v43) (funext fun a => Fin.ext ?_)
  match a with
  | ⟨0, _⟩ => show win2_0.index t (0 : Fin 2) * 2000 + 1 * (y 0).val = (i 0).val; omega
  | ⟨1, _⟩ => show win2_0.index t (1 : Fin 2) * 128 + 1 * (y 1).val = (i 1).val; omega

/-- The factor's block at every point is the factor itself. -/
theorem factor_read (c : Dev nD) (t : Fin cfg2.N) (y : S128x128.Idx) (i : S128x128.Idx)
    (h0 : (i 0).val = (y 0).val) (h1 : (i 1).val = (y 1).val) :
    iblk2 V c 1 t y = V c main_arg4 i := by
  obtain ⟨-, -, e2, e3, -, -⟩ := block_index t
  show V c main_arg4 (((cfg2.win 1).blk t).view.emb y) = V c main_arg4 i
  refine congrArg (V c main_arg4) (funext fun a => Fin.ext ?_)
  match a with
  | ⟨0, _⟩ => show win2_1.index t (0 : Fin 2) * 128 + 1 * (y 0).val = (i 0).val; omega
  | ⟨1, _⟩ => show win2_1.index t (1 : Fin 2) * 128 + 1 * (y 1).val = (i 1).val; omega

/-- What point t writes back is block t of the dense product of the arrays as the call finds them. -/
theorem flushed_eq (c : Dev nD) (t : Fin cfg2.N) :
    (dat2 V c).flushed 2 t
      = ((cfg2.win 2).blk t).view.read (Elt Ideal) (Cert.Gcn.dense (V c main_v43) (V c main_arg4)) := by
  show (cfg2.win 2).cut (grid2.coords t) ((dat2 V c).after 2 t) = _
  rw [after2_2]
  unfold out2_2
  rw [View.canon_unit_zero zeros2]
  simp only [View.ld_unit_zero (S := S2000x128) zeros2, View.ld_unit_zero (S := S128x128) zeros2]
  obtain ⟨-, -, -, -, e4, e5⟩ := block_index t
  funext j
  show k2_pay1 (F := Ideal) (iblk2 V c 0 t) (iblk2 V c 1 t) j
    = Cert.Gcn.dense (V c main_v43) (V c main_arg4) (((cfg2.win 2).blk t).view.emb j)
  rw [block_product_apply, dense_apply]
  refine Finset.sum_congr rfl fun k _ => ?_
  rw [rows_read V c t (rowsAt j k) (Cert.Gcn.lhsAt (((cfg2.win 2).blk t).view.emb j) k)
      (by show win2_2.index t (0 : Fin 2) * 2000 + 1 * (j 0).val = t.val * 2000 + (j 0).val; omega) rfl,
    factor_read V c t (factorAt j k) (Cert.Gcn.rhsAt (((cfg2.win 2).blk t).view.emb j) k) rfl
      (by show win2_2.index t (1 : Fin 2) * 128 + 1 * (j 1).val = (j 1).val; omega)]

/-- An index of the output is in point t's block iff each coordinate is in the block's range on its axis. -/
theorem mem_blk (t : Fin cfg2.N) (i : S50000x128.Idx) :
    i ∈ ((cfg2.win 2).blk t).view.set ↔ ∀ a : Fin 2, win2_2.index t a * S2000x128.size a ≤ (i a).val
      ∧ (i a).val < win2_2.index t a * S2000x128.size a + S2000x128.size a := by
  show i ∈ ((View.whole main_v44).slice (win2_2.rect t)).set ↔ _
  rw [View.set_slice_whole, Rect.mem_set_unit]
  exact Iff.rfl

/-- Row r of the output is in the block of point r / 2000: the blocks cover the array. -/
theorem cover (i : S50000x128.Idx) :
    ∃ t : Fin cfg2.N, (cfg2.win 2).flush t = true ∧ i ∈ ((cfg2.win 2).blk t).view.set := by
  have hi0 : (i 0).val < 50000 := (i 0).isLt
  have hi1 : (i 1).val < 128 := (i 1).isLt
  obtain ⟨t, ht0, ht1⟩ := point_of_block ⟨(i 0).val / 2000, by omega⟩
  have q0 : win2_2.index t (0 : Fin 2) = (i 0).val / 2000 := ht0
  refine ⟨t, flush2_2 t, ?_⟩
  rw [mem_blk]
  intro a
  match a with
  | ⟨0, _⟩ => show win2_2.index t (0 : Fin 2) * 2000 ≤ (i 0).val ∧ (i 0).val < win2_2.index t (0 : Fin 2) * 2000 + 2000; omega
  | ⟨1, _⟩ => show win2_2.index t (1 : Fin 2) * 128 ≤ (i 1).val ∧ (i 1).val < win2_2.index t (1 : Fin 2) * 128 + 128; omega

/-- The array the third pallas_call writes ends at the dense product of the arrays it was entered with. -/
theorem final2 (V : (c : Dev nD) → (b : Ref sig .tc) → Buf (Elt Ideal) ((c : Thread nD τ).loc b)) (c : Dev nD) :
    (dat2 V c).arrAt 2 cfg2.N = Cert.Gcn.dense (V c main_v43) (V c main_arg4) :=
  (dat2 V c).arrAt_eq_of_cover 2 _ (fun t _ => flushed_eq V c t) cover

end Cert.KernelIdeal.Dense2

end
-- ==== Proof.Tail1.lean ====
/-
  The first layer's tail as the second pallas_call leaves it: block t of the result is the tail of rows
  2000·t … 2000·t + 1999 of the aggregate, the product and the degree column, and of the whole bias row.
-/
import proofs.«152891_j25975962206483_1_alg».proof.Proof.Gen.KernelIdeal.Frame
import proofs.«152891_j25975962206483_1_alg».proof.Proof.Spec
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

namespace Cert.KernelIdeal.Tail1

open Idealize.ShloMosaic Idealize.ShloMosaic.TcCoe Idealize.SL.Sem Cert.KernelIdeal Cert.KernelIdeal.Gen
open Idealize.ShloMosaic.Pipeline (Dat Cfg Window)
open Idealize.ShloMosaic.ValueIdx

variable {F : FTy → Type} [FloatOps F]

/-! ## The block's tail, entry by entry -/

/-- An `[a, 1]` column broadcast to `[a, b]` reads, at `(p, q)`, the column's entry of row `p`. -/
theorem broadcastTo_column_apply {α : Type} {a b : ℕ} (v : (⟨2, ![a, 1]⟩ : Shape).Idx → α)
    (h : (⟨2, ![a, 1]⟩ : Shape).Broadcasts ⟨2, ![a, b]⟩) (p : Fin a) (q : Fin b) :
    broadcastTo ⟨2, ![a, b]⟩ v h (ix2 p q) = v (ix2 p (0 : Fin 1)) := by
  refine broadcastTo_apply v h (ix2 p q) (ix2 p (0 : Fin 1)) fun ax => ?_
  match ax with
  | ⟨0, _⟩ =>
    show p.val = if a = 1 then 0 else p.val
    split
    · have := p.isLt; omega
    · rfl
  | ⟨1, _⟩ => rfl

/-- What the body computes from its four loaded blocks, at entry `(p, q)` of the block: the aggregate's entry plus the
    product's entry scaled by the degree column's entry of row `p`, plus the bias row's entry of column `q`, clamped at
    zero. -/
theorem payload_apply (v0 v2 : Vec F S2000x128 .f32) (v4 : Vec F S2000x1 .f32) (v9 : Vec F S1x128 .f32)
    (p : Fin 2000) (q : Fin 128) :
    k1_pay1 v0 v2 v4 v9 (ix2 p q)
      = FloatOps.maximumf
          (FloatOps.addf (FloatOps.addf (v0 (ix2 p q)) (FloatOps.mulf (v2 (ix2 p q)) (v4 (ix2 p (0 : Fin 1)))))
            (v9 (ix2 (0 : Fin 1) q)))
          (FloatOps.ofBits .f32 0x00000000#32) := by
  unfold k1_pay1
  simp only [shapeCast_self]
  show FloatOps.maximumf
      (FloatOps.addf (FloatOps.addf (v0 (ix2 p q)) (FloatOps.mulf (v2 (ix2 p q)) (broadcastTo S2000x128 v4 _ (ix2 p q))))
        (broadcastTo S2000x128 v9 _ (ix2 p q))) _ = _
  rw [broadcastTo_column_apply, broadcastTo_1b_ab_apply]
  rfl

/-! ## Where each window's block lies at a point -/

/-- The body's accesses start at `(0, 0)` of their buffers. -/
theorem zero_offsets : (![0, 0] : Fin 2 → Nat) = fun _ => 0 := funext fun a => by fin_cases a <;> rfl

/-- The index maps, decided over the 25 points: at point `t` the aggregate's, the product's, the degree column's and the
    result's block is block `(t, 0)` of its array, and the bias row's is block `(0, 0)`. -/
theorem index_facts : ∀ t : Fin cfg1.N,
    win1_0.index t (0 : Fin 2) = t.val ∧ win1_0.index t (1 : Fin 2) = 0
    ∧ win1_1.index t (0 : Fin 2) = t.val ∧ win1_1.index t (1 : Fin 2) = 0
    ∧ win1_2.index t (0 : Fin 2) = t.val ∧ win1_2.index t (1 : Fin 2) = 0
    ∧ win1_3.index t (0 : Fin 2) = 0 ∧ win1_3.index t (1 : Fin 2) = 0
    ∧ win1_4.index t (0 : Fin 2) = t.val ∧ win1_4.index t (1 : Fin 2) = 0 :=
  (by decide +kernel : ∀ t : Fin grid1.N, _)

section Reads
variable (V : (c : Dev nD) → (b : Ref sig .tc) → Buf (Elt F) ((c : Thread nD τ).loc b)) (c : Dev nD) (t : Fin cfg1.N)
  (p : Fin 2000) (q : Fin 128)

/-- Entry `(p, q)` of the aggregate's block at point `t` is the aggregate at the array index of entry `(p, q)` of the
    result's block: both are block `(t, 0)` of arrays of one shape. -/
theorem read_aggregate :
    iblk1 V c 0 t (ix2 p q) = V c main_v41 (((cfg1.win 4).blk t).view.emb (ix2 p q)) := by
  show V c main_v41 (((cfg1.win 0).blk t).view.emb (ix2 p q)) = V c main_v41 (((cfg1.win 4).blk t).view.emb (ix2 p q))
  refine congrArg (V c main_v41) (funext fun a => Fin.ext ?_)
  obtain ⟨e00, e01, -, -, -, -, -, -, e40, e41⟩ := index_facts t
  match a with
  | ⟨0, _⟩ => show win1_0.index t (0 : Fin 2) * 2000 + 1 * p.val = win1_4.index t (0 : Fin 2) * 2000 + 1 * p.val; omega
  | ⟨1, _⟩ => show win1_0.index t (1 : Fin 2) * 128 + 1 * q.val = win1_4.index t (1 : Fin 2) * 128 + 1 * q.val; omega

/-- Likewise for the product's block. -/
theorem read_product :
    iblk1 V c 1 t (ix2 p q) = V c main_v29 (((cfg1.win 4).blk t).view.emb (ix2 p q)) := by
  show V c main_v29 (((cfg1.win 1).blk t).view.emb (ix2 p q)) = V c main_v29 (((cfg1.win 4).blk t).view.emb (ix2 p q))
  refine congrArg (V c main_v29) (funext fun a => Fin.ext ?_)
  obtain ⟨-, -, e10, e11, -, -, -, -, e40, e41⟩ := index_facts t
  match a with
  | ⟨0, _⟩ => show win1_1.index t (0 : Fin 2) * 2000 + 1 * p.val = win1_4.index t (0 : Fin 2) * 2000 + 1 * p.val; omega
  | ⟨1, _⟩ => show win1_1.index t (1 : Fin 2) * 128 + 1 * q.val = win1_4.index t (1 : Fin 2) * 128 + 1 * q.val; omega

/-- Entry `(p, 0)` of the degree column's block at point `t` (rows `2000 t …` of the column) is the column's entry for the
    row of entry `(p, q)` of the result's block. -/
theorem read_degree :
    iblk1 V c 2 t (ix2 p (0 : Fin 1))
      = V c main_v12 (Cert.Gcn.rowOf (((cfg1.win 4).blk t).view.emb (ix2 p q))) := by
  show V c main_v12 (((cfg1.win 2).blk t).view.emb (ix2 p (0 : Fin 1)))
    = V c main_v12 (Cert.Gcn.rowOf (((cfg1.win 4).blk t).view.emb (ix2 p q)))
  refine congrArg (V c main_v12) (funext fun a => Fin.ext ?_)
  obtain ⟨-, -, -, -, e20, e21, -, -, e40, e41⟩ := index_facts t
  match a with
  | ⟨0, _⟩ => show win1_2.index t (0 : Fin 2) * 2000 + 1 * p.val = win1_4.index t (0 : Fin 2) * 2000 + 1 * p.val; omega
  | ⟨1, _⟩ => show win1_2.index t (1 : Fin 2) * 1 + 1 * 0 = 0; omega

/-- Entry `(0, q)` of the bias row's block (the whole row, at every point) is the row's entry for the column of entry
    `(p, q)` of the result's block. -/
theorem read_bias :
    iblk1 V c 3 t (ix2 (0 : Fin 1) q)
      = V c main_v42 (Cert.Gcn.colOf (((cfg1.win 4).blk t).view.emb (ix2 p q))) := by
  show V c main_v42 (((cfg1.win 3).blk t).view.emb (ix2 (0 : Fin 1) q))
    = V c main_v42 (Cert.Gcn.colOf (((cfg1.win 4).blk t).view.emb (ix2 p q)))
  refine congrArg (V c main_v42) (funext fun a => Fin.ext ?_)
  obtain ⟨-, -, -, -, -, -, e30, e31, e40, e41⟩ := index_facts t
  match a with
  | ⟨0, _⟩ => show win1_3.index t (0 : Fin 2) * 1 + 1 * 0 = 0; omega
  | ⟨1, _⟩ => show win1_3.index t (1 : Fin 2) * 128 + 1 * q.val = win1_4.index t (1 : Fin 2) * 128 + 1 * q.val; omega

/-- WHAT POINT `t` WRITES BACK is block `t` of the first layer's tail of the arrays as the region finds them. -/
theorem flushed_eq :
    (dat1 V c).flushed 4 t = ((cfg1.win 4).blk t).view.read (Elt F)
      (Cert.Gcn.tail1 (V c main_v41) (V c main_v29) (V c main_v12) (V c main_v42)) := by
  show (cfg1.win 4).cut (grid1.coords t) ((dat1 V c).after 4 t) = _
  rw [after1_4]
  unfold out1_4
  rw [View.canon_unit_zero zero_offsets]
  simp only [View.ld_unit_zero (S := S2000x128) zero_offsets, View.ld_unit_zero (S := S2000x1) zero_offsets,
    View.ld_unit_zero (S := S1x128) zero_offsets]
  funext j
  obtain ⟨p, q, rfl⟩ : ∃ (p : Fin 2000) (q : Fin 128), j = ix2 p q := ⟨j 0, j 1, eq_ix2 j⟩
  show k1_pay1 (iblk1 V c 0 t) (iblk1 V c 1 t) (iblk1 V c 2 t) (iblk1 V c 3 t) (ix2 p q)
    = Cert.Gcn.tail1 (V c main_v41) (V c main_v29) (V c main_v12) (V c main_v42) (((cfg1.win 4).blk t).view.emb (ix2 p q))
  rw [payload_apply, read_aggregate V c t p q, read_product V c t p q, read_degree V c t p q, read_bias V c t p q]
  rfl

end Reads

/-! ## The blocks fill the array -/

/-- An index of the array is in point `t`'s block iff each coordinate is in the block's range on its axis. -/
theorem mem_block (t : Fin cfg1.N) (i : S50000x128.Idx) :
    i ∈ ((cfg1.win 4).blk t).view.set ↔ ∀ a : Fin 2, win1_4.index t a * S2000x128.size a ≤ (i a).val
      ∧ (i a).val < win1_4.index t a * S2000x128.size a + S2000x128.size a := by
  show i ∈ ((View.whole main_v43).slice (win1_4.rect t)).set ↔ _
  rw [View.set_slice_whole, Rect.mem_set_unit]
  exact Iff.rfl

/-- Every index of the array is in some point's block: row `r` is among rows `2000 t … 2000 t + 1999` for `t = r / 2000`,
    one of the 25 points since `r < 50000`, and a block spans all 128 columns. -/
theorem cover (i : S50000x128.Idx) :
    ∃ t : Fin cfg1.N, (cfg1.win 4).flush t = true ∧ i ∈ ((cfg1.win 4).blk t).view.set := by
  have hi0 : (i 0).val < 50000 := (i 0).isLt
  have hi1 : (i 1).val < 128 := (i 1).isLt
  have hN : cfg1.N = 25 := by decide
  obtain ⟨t, ht⟩ : ∃ t : Fin cfg1.N, t.val = (i 0).val / 2000 := ⟨⟨(i 0).val / 2000, by rw [hN]; omega⟩, rfl⟩
  obtain ⟨-, -, -, -, -, -, -, -, e40, e41⟩ := index_facts t
  refine ⟨t, flush1_4 t, ?_⟩
  rw [mem_block]
  intro a
  match a with
  | ⟨0, _⟩ =>
    show win1_4.index t (0 : Fin 2) * 2000 ≤ (i 0).val ∧ (i 0).val < win1_4.index t (0 : Fin 2) * 2000 + 2000
    omega
  | ⟨1, _⟩ =>
    show win1_4.index t (1 : Fin 2) * 128 ≤ (i 1).val ∧ (i 1).val < win1_4.index t (1 : Fin 2) * 128 + 128
    omega

/-- The array the second pallas_call writes ends at the first layer's tail of the arrays it was entered with. -/
theorem final1 (V : (c : Dev nD) → (b : Ref sig .tc) → Buf (Elt F) ((c : Thread nD τ).loc b)) (c : Dev nD) :
    (dat1 V c).arrAt 4 cfg1.N = Cert.Gcn.tail1 (V c main_v41) (V c main_v29) (V c main_v12) (V c main_v42) :=
  (dat1 V c).arrAt_eq_of_cover 4 _ (fun t _ => flushed_eq V c t) cover

end Cert.KernelIdeal.Tail1

end
-- ==== Proof.Tail3.lean ====
/-
  The second layer's tail as the fourth pallas_call leaves it: block t of the result is the tail of rows
  2000·t … 2000·t + 1999 of the aggregate, the product, the degree column and the residual, and of the whole bias row.
-/
import proofs.«152891_j25975962206483_1_alg».proof.Proof.Gen.KernelIdeal.Frame
import proofs.«152891_j25975962206483_1_alg».proof.Proof.Spec
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

namespace Cert.KernelIdeal.Tail3

open Idealize.ShloMosaic Idealize.ShloMosaic.TcCoe Idealize.SL.Sem Cert.KernelIdeal Cert.KernelIdeal.Gen
open Idealize.ShloMosaic.Pipeline (Dat Cfg Window)
open Idealize.ShloMosaic.ValueIdx

variable {F : FTy → Type} [FloatOps F]

/-! ## The block's tail, entry by entry -/

/-- An `[a, 1]` column broadcast to `[a, b]` reads, at `(p, q)`, the column's entry of row `p`. -/
theorem broadcastTo_column_apply {α : Type} {a b : ℕ} (v : (⟨2, ![a, 1]⟩ : Shape).Idx → α)
    (h : (⟨2, ![a, 1]⟩ : Shape).Broadcasts ⟨2, ![a, b]⟩) (p : Fin a) (q : Fin b) :
    broadcastTo ⟨2, ![a, b]⟩ v h (ix2 p q) = v (ix2 p (0 : Fin 1)) := by
  refine broadcastTo_apply v h (ix2 p q) (ix2 p (0 : Fin 1)) fun ax => ?_
  match ax with
  | ⟨0, _⟩ =>
    show p.val = if a = 1 then 0 else p.val
    split
    · have := p.isLt; omega
    · rfl
  | ⟨1, _⟩ => rfl

/-- What the body computes from its five loaded blocks, at entry `(p, q)` of the block: the aggregate's entry plus the
    product's entry scaled by the degree column's entry of row `p`, plus the bias row's entry of column `q`, plus the
    residual's entry, clamped at zero. -/
theorem payload_apply (v0 v2 : Vec F S2000x128 .f32) (v4 : Vec F S2000x1 .f32) (v9 : Vec F S1x128 .f32)
    (v13 : Vec F S2000x128 .f32) (p : Fin 2000) (q : Fin 128) :
    k3_pay1 v0 v2 v4 v9 v13 (ix2 p q)
      = FloatOps.maximumf
          (FloatOps.addf
            (FloatOps.addf (FloatOps.addf (v0 (ix2 p q)) (FloatOps.mulf (v2 (ix2 p q)) (v4 (ix2 p (0 : Fin 1)))))
              (v9 (ix2 (0 : Fin 1) q)))
            (v13 (ix2 p q)))
          (FloatOps.ofBits .f32 0x00000000#32) := by
  unfold k3_pay1
  simp only [shapeCast_self]
  show FloatOps.maximumf
      (FloatOps.addf
        (FloatOps.addf (FloatOps.addf (v0 (ix2 p q)) (FloatOps.mulf (v2 (ix2 p q)) (broadcastTo S2000x128 v4 _ (ix2 p q))))
          (broadcastTo S2000x128 v9 _ (ix2 p q)))
        (v13 (ix2 p q))) _ = _
  rw [broadcastTo_column_apply, broadcastTo_1b_ab_apply]
  rfl

/-! ## Where each window's block lies at a point -/

/-- The body's accesses start at `(0, 0)` of their buffers. -/
theorem zero_offsets : (![0, 0] : Fin 2 → Nat) = fun _ => 0 := funext fun a => by fin_cases a <;> rfl

/-- The index maps, decided over the 25 points: at point `t` the aggregate's, the product's, the degree column's, the
    residual's and the result's block is block `(t, 0)` of its array, and the bias row's is block `(0, 0)`. -/
theorem index_facts : ∀ t : Fin cfg3.N,
    win3_0.index t (0 : Fin 2) = t.val ∧ win3_0.index t (1 : Fin 2) = 0
    ∧ win3_1.index t (0 : Fin 2) = t.val ∧ win3_1.index t (1 : Fin 2) = 0
    ∧ win3_2.index t (0 : Fin 2) = t.val ∧ win3_2.index t (1 : Fin 2) = 0
    ∧ win3_3.index t (0 : Fin 2) = 0 ∧ win3_3.index t (1 : Fin 2) = 0
    ∧ win3_4.index t (0 : Fin 2) = t.val ∧ win3_4.index t (1 : Fin 2) = 0
    ∧ win3_5.index t (0 : Fin 2) = t.val ∧ win3_5.index t (1 : Fin 2) = 0 :=
  (by decide +kernel : ∀ t : Fin grid3.N, _)

section Reads
variable (V : (c : Dev nD) → (b : Ref sig .tc) → Buf (Elt F) ((c : Thread nD τ).loc b)) (c : Dev nD) (t : Fin cfg3.N)
  (p : Fin 2000) (q : Fin 128)

/-- Entry `(p, q)` of the aggregate's block at point `t` is the aggregate at the array index of entry `(p, q)` of the
    result's block: both are block `(t, 0)` of arrays of one shape. -/
theorem read_aggregate :
    iblk3 V c 0 t (ix2 p q) = V c main_v56 (((cfg3.win 5).blk t).view.emb (ix2 p q)) := by
  show V c main_v56 (((cfg3.win 0).blk t).view.emb (ix2 p q)) = V c main_v56 (((cfg3.win 5).blk t).view.emb (ix2 p q))
  refine congrArg (V c main_v56) (funext fun a => Fin.ext ?_)
  obtain ⟨e00, e01, -, -, -, -, -, -, -, -, e50, e51⟩ := index_facts t
  match a with
  | ⟨0, _⟩ => show win3_0.index t (0 : Fin 2) * 2000 + 1 * p.val = win3_5.index t (0 : Fin 2) * 2000 + 1 * p.val; omega
  | ⟨1, _⟩ => show win3_0.index t (1 : Fin 2) * 128 + 1 * q.val = win3_5.index t (1 : Fin 2) * 128 + 1 * q.val; omega

/-- Likewise for the product's block. -/
theorem read_product :
    iblk3 V c 1 t (ix2 p q) = V c main_v44 (((cfg3.win 5).blk t).view.emb (ix2 p q)) := by
  show V c main_v44 (((cfg3.win 1).blk t).view.emb (ix2 p q)) = V c main_v44 (((cfg3.win 5).blk t).view.emb (ix2 p q))
  refine congrArg (V c main_v44) (funext fun a => Fin.ext ?_)
  obtain ⟨-, -, e10, e11, -, -, -, -, -, -, e50, e51⟩ := index_facts t
  match a with
  | ⟨0, _⟩ => show win3_1.index t (0 : Fin 2) * 2000 + 1 * p.val = win3_5.index t (0 : Fin 2) * 2000 + 1 * p.val; omega
  | ⟨1, _⟩ => show win3_1.index t (1 : Fin 2) * 128 + 1 * q.val = win3_5.index t (1 : Fin 2) * 128 + 1 * q.val; omega

/-- Entry `(p, 0)` of the degree column's block at point `t` (rows `2000 t …` of the column) is the column's entry for the
    row of entry `(p, q)` of the result's block. -/
theorem read_degree :
    iblk3 V c 2 t (ix2 p (0 : Fin 1))
      = V c main_v12 (Cert.Gcn.rowOf (((cfg3.win 5).blk t).view.emb (ix2 p q))) := by
  show V c main_v12 (((cfg3.win 2).blk t).view.emb (ix2 p (0 : Fin 1)))
    = V c main_v12 (Cert.Gcn.rowOf (((cfg3.win 5).blk t).view.emb (ix2 p q)))
  refine congrArg (V c main_v12) (funext fun a => Fin.ext ?_)
  obtain ⟨-, -, -, -, e20, e21, -, -, -, -, e50, e51⟩ := index_facts t
  match a with
  | ⟨0, _⟩ => show win3_2.index t (0 : Fin 2) * 2000 + 1 * p.val = win3_5.index t (0 : Fin 2) * 2000 + 1 * p.val; omega
  | ⟨1, _⟩ => show win3_2.index t (1 : Fin 2) * 1 + 1 * 0 = 0; omega

/-- Entry `(0, q)` of the bias row's block (the whole row, at every point) is the row's entry for the column of entry
    `(p, q)` of the result's block. -/
theorem read_bias :
    iblk3 V c 3 t (ix2 (0 : Fin 1) q)
      = V c main_v57 (Cert.Gcn.colOf (((cfg3.win 5).blk t).view.emb (ix2 p q))) := by
  show V c main_v57 (((cfg3.win 3).blk t).view.emb (ix2 (0 : Fin 1) q))
    = V c main_v57 (Cert.Gcn.colOf (((cfg3.win 5).blk t).view.emb (ix2 p q)))
  refine congrArg (V c main_v57) (funext fun a => Fin.ext ?_)
  obtain ⟨-, -, -, -, -, -, e30, e31, -, -, e50, e51⟩ := index_facts t
  match a with
  | ⟨0, _⟩ => show win3_3.index t (0 : Fin 2) * 1 + 1 * 0 = 0; omega
  | ⟨1, _⟩ => show win3_3.index t (1 : Fin 2) * 128 + 1 * q.val = win3_5.index t (1 : Fin 2) * 128 + 1 * q.val; omega

/-- The residual's block is read like the aggregate's: block `(t, 0)` of an array of the result's shape. -/
theorem read_residual :
    iblk3 V c 4 t (ix2 p q) = V c main_arg0 (((cfg3.win 5).blk t).view.emb (ix2 p q)) := by
  show V c main_arg0 (((cfg3.win 4).blk t).view.emb (ix2 p q)) = V c main_arg0 (((cfg3.win 5).blk t).view.emb (ix2 p q))
  refine congrArg (V c main_arg0) (funext fun a => Fin.ext ?_)
  obtain ⟨-, -, -, -, -, -, -, -, e40, e41, e50, e51⟩ := index_facts t
  match a with
  | ⟨0, _⟩ => show win3_4.index t (0 : Fin 2) * 2000 + 1 * p.val = win3_5.index t (0 : Fin 2) * 2000 + 1 * p.val; omega
  | ⟨1, _⟩ => show win3_4.index t (1 : Fin 2) * 128 + 1 * q.val = win3_5.index t (1 : Fin 2) * 128 + 1 * q.val; omega

/-- WHAT POINT `t` WRITES BACK is block `t` of the second layer's tail of the arrays as the region finds them. -/
theorem flushed_eq :
    (dat3 V c).flushed 5 t = ((cfg3.win 5).blk t).view.read (Elt F)
      (Cert.Gcn.tail2 (V c main_v56) (V c main_v44) (V c main_v12) (V c main_v57) (V c main_arg0)) := by
  show (cfg3.win 5).cut (grid3.coords t) ((dat3 V c).after 5 t) = _
  rw [after3_5]
  unfold out3_5
  rw [View.canon_unit_zero zero_offsets]
  simp only [View.ld_unit_zero (S := S2000x128) zero_offsets, View.ld_unit_zero (S := S2000x1) zero_offsets,
    View.ld_unit_zero (S := S1x128) zero_offsets]
  funext j
  obtain ⟨p, q, rfl⟩ : ∃ (p : Fin 2000) (q : Fin 128), j = ix2 p q := ⟨j 0, j 1, eq_ix2 j⟩
  show k3_pay1 (iblk3 V c 0 t) (iblk3 V c 1 t) (iblk3 V c 2 t) (iblk3 V c 3 t) (iblk3 V c 4 t) (ix2 p q)
    = Cert.Gcn.tail2 (V c main_v56) (V c main_v44) (V c main_v12) (V c main_v57) (V c main_arg0)
        (((cfg3.win 5).blk t).view.emb (ix2 p q))
  rw [payload_apply, read_aggregate V c t p q, read_product V c t p q, read_degree V c t p q, read_bias V c t p q,
    read_residual V c t p q]
  rfl

end Reads

/-! ## The blocks fill the array -/

/-- An index of the array is in point `t`'s block iff each coordinate is in the block's range on its axis. -/
theorem mem_block (t : Fin cfg3.N) (i : S50000x128.Idx) :
    i ∈ ((cfg3.win 5).blk t).view.set ↔ ∀ a : Fin 2, win3_5.index t a * S2000x128.size a ≤ (i a).val
      ∧ (i a).val < win3_5.index t a * S2000x128.size a + S2000x128.size a := by
  show i ∈ ((View.whole main_v58).slice (win3_5.rect t)).set ↔ _
  rw [View.set_slice_whole, Rect.mem_set_unit]
  exact Iff.rfl

/-- Every index of the array is in some point's block: row `r` is among rows `2000 t … 2000 t + 1999` for `t = r / 2000`,
    one of the 25 points since `r < 50000`, and a block spans all 128 columns. -/
theorem cover (i : S50000x128.Idx) :
    ∃ t : Fin cfg3.N, (cfg3.win 5).flush t = true ∧ i ∈ ((cfg3.win 5).blk t).view.set := by
  have hi0 : (i 0).val < 50000 := (i 0).isLt
  have hi1 : (i 1).val < 128 := (i 1).isLt
  have hN : cfg3.N = 25 := by decide
  obtain ⟨t, ht⟩ : ∃ t : Fin cfg3.N, t.val = (i 0).val / 2000 := ⟨⟨(i 0).val / 2000, by rw [hN]; omega⟩, rfl⟩
  obtain ⟨-, -, -, -, -, -, -, -, -, -, e50, e51⟩ := index_facts t
  refine ⟨t, flush3_5 t, ?_⟩
  rw [mem_block]
  intro a
  match a with
  | ⟨0, _⟩ =>
    show win3_5.index t (0 : Fin 2) * 2000 ≤ (i 0).val ∧ (i 0).val < win3_5.index t (0 : Fin 2) * 2000 + 2000
    omega
  | ⟨1, _⟩ =>
    show win3_5.index t (1 : Fin 2) * 128 ≤ (i 1).val ∧ (i 1).val < win3_5.index t (1 : Fin 2) * 128 + 128
    omega

/-- The array the fourth pallas_call writes ends at the second layer's tail of the arrays it was entered with. -/
theorem final3 (V : (c : Dev nD) → (b : Ref sig .tc) → Buf (Elt F) ((c : Thread nD τ).loc b)) (c : Dev nD) :
    (dat3 V c).arrAt 5 cfg3.N = Cert.Gcn.tail2 (V c main_v56) (V c main_v44) (V c main_v12) (V c main_v57) (V c main_arg0) :=
  (dat3 V c).arrAt_eq_of_cover 5 _ (fun t _ => flushed_eq V c t) cover

end Cert.KernelIdeal.Tail3

end
-- ==== Proof.Fold.lean ====
/-
  The idealized kernel's result array, read back through the fold of @main's segments.

  The host prologue computes, from the edge array alone, the source and target index vectors, the inverse-root
  degrees, their squares as a column, and the edge normalisation as a column: the same terms the reference computes
  (it spells a unit axis added to a vector as a broadcast where the kernel reshapes: the same array). No later
  segment writes these buffers. Each pallas_call leaves its output at the layer function of the arrays it was entered
  with, and each host stretch between them is the layer's aggregation over the edges. Composed: the network.
-/
import proofs.«152891_j25975962206483_1_alg».proof.Proof.Gen.KernelIdeal.Frame
import proofs.«152891_j25975962206483_1_alg».proof.Proof.RefLayers
import proofs.«152891_j25975962206483_1_alg».proof.Proof.Dense0
import proofs.«152891_j25975962206483_1_alg».proof.Proof.Dense2
import proofs.«152891_j25975962206483_1_alg».proof.Proof.Tail1
import proofs.«152891_j25975962206483_1_alg».proof.Proof.Tail3
import Idealize.ShloMosaic.Lib.StableHlo.Run
import Idealize.ShloMosaic.Lib.Pipeline.Value

set_option maxRecDepth 16384

noncomputable section

namespace Cert.KernelIdeal.Fold

open Idealize.ShloMosaic Idealize.ShloMosaic.TcCoe Idealize.SL.Sem Idealize.ShloMosaic.StableHlo
open Cert.KernelIdeal Cert.KernelIdeal.Gen
open Idealize.ShloMosaic.Pipeline (Dat Cfg Window)

variable (m : (ℓ : Loc nD τ sig) → Buf (Elt Ideal) ℓ) (ρ : Dev nD → PrngReg) (c : Dev nD)

/-! ## A vector with a unit axis added: reshaped or broadcast, the same array -/

section UnitAxis
variable {α : Type}

/-- A vector of 800000 entries as a column: the reshape is the broadcast along axis 0. -/
theorem col_edges (y : S800000.Idx → α) (h : S800000.ShapeCasts S800000x1) (h' : S800000.BroadcastsInDim S800000x1 ![0]) :
    shapeCast S800000x1 y h = broadcastInDim S800000x1 ![0] h' y := by
  funext i
  have hi : (i 1).val = 0 := Nat.lt_one_iff.mp (i 1).isLt
  rw [shapeCast_apply y h i (fun a => match a with | ⟨0, _⟩ => ⟨(i 0).val, (i 0).isLt⟩) (by
        rw [Shape.rowMajor_val_one, Shape.rowMajor_val_two]; show (i 0).val = (i 0).val * 1 + (i 1).val; omega),
    broadcastInDim_apply _ h' y i (fun a => match a with | ⟨0, _⟩ => ⟨(i 0).val, (i 0).isLt⟩) (fun a => match a with
      | ⟨0, _⟩ => by show (i 0).val = if (800000 : Nat) = 1 then 0 else (i 0).val; rw [if_neg (by decide)])]

/-- A vector of 50000 entries as a column: the reshape is the broadcast along axis 0. -/
theorem col_nodes (y : S50000.Idx → α) (h : S50000.ShapeCasts S50000x1) (h' : S50000.BroadcastsInDim S50000x1 ![0]) :
    shapeCast S50000x1 y h = broadcastInDim S50000x1 ![0] h' y := by
  funext i
  have hi : (i 1).val = 0 := Nat.lt_one_iff.mp (i 1).isLt
  rw [shapeCast_apply y h i (fun a => match a with | ⟨0, _⟩ => ⟨(i 0).val, (i 0).isLt⟩) (by
        rw [Shape.rowMajor_val_one, Shape.rowMajor_val_two]; show (i 0).val = (i 0).val * 1 + (i 1).val; omega),
    broadcastInDim_apply _ h' y i (fun a => match a with | ⟨0, _⟩ => ⟨(i 0).val, (i 0).isLt⟩) (fun a => match a with
      | ⟨0, _⟩ => by show (i 0).val = if (50000 : Nat) = 1 then 0 else (i 0).val; rw [if_neg (by decide)])]

/-- A vector of 128 entries as a row: the reshape is the broadcast along axis 1. -/
theorem row_bias (y : S128.Idx → α) (h : S128.ShapeCasts S1x128) (h' : S128.BroadcastsInDim S1x128 ![1]) :
    shapeCast S1x128 y h = broadcastInDim S1x128 ![1] h' y := by
  funext i
  have hi : (i 0).val = 0 := Nat.lt_one_iff.mp (i 0).isLt
  rw [shapeCast_apply y h i (fun a => match a with | ⟨0, _⟩ => ⟨(i 1).val, (i 1).isLt⟩) (by
        rw [Shape.rowMajor_val_one, Shape.rowMajor_val_two]; show (i 1).val = (i 0).val * 128 + (i 1).val; omega),
    broadcastInDim_apply _ h' y i (fun a => match a with | ⟨0, _⟩ => ⟨(i 1).val, (i 1).isLt⟩) (fun a => match a with
      | ⟨0, _⟩ => by show (i 1).val = if (128 : Nat) = 1 then 0 else (i 1).val; rw [if_neg (by decide)])]

end UnitAxis

/-- No operation of the named host stretch writes the buffer: its contents pass through the stretch. -/
local macro "not_written " ops:ident : tactic => `(tactic| (
  refine StableHlo.after_of_forall_not_mem _ _ (List.forall_iff_forall_mem.mp ?_)
  simp only [$ops:ident, List.Forall, StableHlo.nullary_writes, StableHlo.unary_writes, StableHlo.binary_writes,
    StableHlo.ternary_writes, StableHlo.quaternary_writes, StableHlo.reshape_writes, StableHlo.binaryIndexed_writes, Finset.mem_singleton]
  repeat' apply And.intro
  all_goals exact StableHlo.devRef_ne_of_ne (by decide)))

/-! ## What the prologue leaves (the contents the first pallas_call is entered with) -/

/-- The source indices: the reference's stage. -/
theorem src_at1 : W1 m ρ c (Proc.devRef .tc main_v1) = Cert.ReferenceIdeal.Read.val_main_v1 (F := Ideal) (m ((c : Thread nD τ).loc main_arg1)) := by
  dsimp only [W1, hostOps0]; after_results_simp; rfl

/-- The target indices: the reference's stage. -/
theorem dst_at1 : W1 m ρ c (Proc.devRef .tc main_v3) = Cert.ReferenceIdeal.Read.val_main_v3 (F := Ideal) (m ((c : Thread nD τ).loc main_arg1)) := by
  dsimp only [W1, hostOps0]; after_results_simp; rfl

/-- The squared inverse-root degrees as a column: the reference's stage. -/
theorem deg_at1 : W1 m ρ c (Proc.devRef .tc main_v12) = Cert.ReferenceIdeal.Read.val_main_v41 (F := Ideal) (m ((c : Thread nD τ).loc main_arg1)) := by
  have e : W1 m ρ c (Proc.devRef .tc main_v12)
      = shapeCast S50000x1 (Cert.ReferenceIdeal.Read.val_main_v40 (F := Ideal) (m ((c : Thread nD τ).loc main_arg1))) shapeCasts_S50000_S50000x1 := by
    dsimp only [W1, hostOps0]; after_results_simp; rfl
  rw [e]; exact col_nodes _ _ _

/-- The edge normalisation as a column: the reference's stage. -/
theorem norm_at1 : W1 m ρ c (Proc.devRef .tc main_v28) = Cert.ReferenceIdeal.Read.val_main_v34 (F := Ideal) (m ((c : Thread nD τ).loc main_arg1)) := by
  have e : W1 m ρ c (Proc.devRef .tc main_v28)
      = shapeCast S800000x1 (Cert.ReferenceIdeal.Read.val_main_v26 (F := Ideal) (m ((c : Thread nD τ).loc main_arg1))) shapeCasts_S800000_S800000x1 := by
    dsimp only [W1, hostOps0]; after_results_simp; rfl
  rw [e]; exact col_edges _ _ _

theorem arg0_at1 : W1 m ρ c (Proc.devRef .tc main_arg0) = (m ((c : Thread nD τ).loc main_arg0)) := by
  show StableHlo.after hostOps0 (W0 m ρ c) (Proc.devRef .tc main_arg0) = W0 m ρ c (Proc.devRef .tc main_arg0); not_written hostOps0
theorem arg2_at1 : W1 m ρ c (Proc.devRef .tc main_arg2) = (m ((c : Thread nD τ).loc main_arg2)) := by
  show StableHlo.after hostOps0 (W0 m ρ c) (Proc.devRef .tc main_arg2) = W0 m ρ c (Proc.devRef .tc main_arg2); not_written hostOps0
theorem arg3_at1 : W1 m ρ c (Proc.devRef .tc main_arg3) = (m ((c : Thread nD τ).loc main_arg3)) := by
  show StableHlo.after hostOps0 (W0 m ρ c) (Proc.devRef .tc main_arg3) = W0 m ρ c (Proc.devRef .tc main_arg3); not_written hostOps0
theorem arg4_at1 : W1 m ρ c (Proc.devRef .tc main_arg4) = (m ((c : Thread nD τ).loc main_arg4)) := by
  show StableHlo.after hostOps0 (W0 m ρ c) (Proc.devRef .tc main_arg4) = W0 m ρ c (Proc.devRef .tc main_arg4); not_written hostOps0
theorem arg5_at1 : W1 m ρ c (Proc.devRef .tc main_arg5) = (m ((c : Thread nD τ).loc main_arg5)) := by
  show StableHlo.after hostOps0 (W0 m ρ c) (Proc.devRef .tc main_arg5) = W0 m ρ c (Proc.devRef .tc main_arg5); not_written hostOps0

/-! ## The first pallas_call and the stretch after it -/

theorem src_at2 : W2 m ρ c (Proc.devRef .tc main_v1) = Cert.ReferenceIdeal.Read.val_main_v1 (F := Ideal) (m ((c : Thread nD τ).loc main_arg1)) :=
  (W2_of_ne m ρ c main_v1 (by decide)).trans (src_at1 m ρ c)
theorem dst_at2 : W2 m ρ c (Proc.devRef .tc main_v3) = Cert.ReferenceIdeal.Read.val_main_v3 (F := Ideal) (m ((c : Thread nD τ).loc main_arg1)) :=
  (W2_of_ne m ρ c main_v3 (by decide)).trans (dst_at1 m ρ c)
theorem deg_at2 : W2 m ρ c (Proc.devRef .tc main_v12) = Cert.ReferenceIdeal.Read.val_main_v41 (F := Ideal) (m ((c : Thread nD τ).loc main_arg1)) :=
  (W2_of_ne m ρ c main_v12 (by decide)).trans (deg_at1 m ρ c)
theorem norm_at2 : W2 m ρ c (Proc.devRef .tc main_v28) = Cert.ReferenceIdeal.Read.val_main_v34 (F := Ideal) (m ((c : Thread nD τ).loc main_arg1)) :=
  (W2_of_ne m ρ c main_v28 (by decide)).trans (norm_at1 m ρ c)
theorem arg0_at2 : W2 m ρ c (Proc.devRef .tc main_arg0) = (m ((c : Thread nD τ).loc main_arg0)) :=
  ((W2_arr m ρ c 0).trans (((dat0 (V1 m ρ) c).arrAt_in 0 rfl _).trans (A_eq0 (V1 m ρ) c 0))).trans (arg0_at1 m ρ c)
theorem arg3_at2 : W2 m ρ c (Proc.devRef .tc main_arg3) = (m ((c : Thread nD τ).loc main_arg3)) :=
  (W2_of_ne m ρ c main_arg3 (by decide)).trans (arg3_at1 m ρ c)
theorem arg4_at2 : W2 m ρ c (Proc.devRef .tc main_arg4) = (m ((c : Thread nD τ).loc main_arg4)) :=
  (W2_of_ne m ρ c main_arg4 (by decide)).trans (arg4_at1 m ρ c)
theorem arg5_at2 : W2 m ρ c (Proc.devRef .tc main_arg5) = (m ((c : Thread nD τ).loc main_arg5)) :=
  (W2_of_ne m ρ c main_arg5 (by decide)).trans (arg5_at1 m ρ c)

/-- The first dense product, x · W₁. -/
theorem h1_at2 : W2 m ρ c (Proc.devRef .tc main_v29) = Cert.Gcn.dense (m ((c : Thread nD τ).loc main_arg0)) (m ((c : Thread nD τ).loc main_arg2)) := by
  refine (W2_arr m ρ c 2).trans ((Cert.KernelIdeal.Dense0.final0 (V1 m ρ) c).trans ?_)
  show Cert.Gcn.dense (W1 m ρ c (Proc.devRef .tc main_arg0)) (W1 m ρ c (Proc.devRef .tc main_arg2)) = _
  rw [arg0_at1, arg2_at1]

/-- The stretch between the first two pallas_calls: the aggregation of the product over the edges. -/
theorem agg1_at3 : W3 m ρ c (Proc.devRef .tc main_v41)
    = Cert.Gcn.aggOf (m ((c : Thread nD τ).loc main_arg1)) (W2 m ρ c (Proc.devRef .tc main_v29)) := by
  dsimp only [W3, hostOps1]; after_results_simp
  rw [src_at2, dst_at2, norm_at2]; rfl

/-- The first bias as a row: the reference's stage. -/
theorem b1_at3 : W3 m ρ c (Proc.devRef .tc main_v42) = Cert.ReferenceIdeal.Read.val_main_v45 (F := Ideal) (m ((c : Thread nD τ).loc main_arg3)) := by
  dsimp only [W3, hostOps1]; after_results_simp
  rw [arg3_at2]; exact row_bias _ _ _

theorem h1_at3 : W3 m ρ c (Proc.devRef .tc main_v29) = W2 m ρ c (Proc.devRef .tc main_v29) := by
  show StableHlo.after hostOps1 (W2 m ρ c) (Proc.devRef .tc main_v29) = _; not_written hostOps1
theorem deg_at3 : W3 m ρ c (Proc.devRef .tc main_v12) = Cert.ReferenceIdeal.Read.val_main_v41 (F := Ideal) (m ((c : Thread nD τ).loc main_arg1)) := by
  refine Eq.trans ?_ (deg_at2 m ρ c)
  show StableHlo.after hostOps1 (W2 m ρ c) (Proc.devRef .tc main_v12) = _; not_written hostOps1
theorem src_at3 : W3 m ρ c (Proc.devRef .tc main_v1) = Cert.ReferenceIdeal.Read.val_main_v1 (F := Ideal) (m ((c : Thread nD τ).loc main_arg1)) := by
  refine Eq.trans ?_ (src_at2 m ρ c)
  show StableHlo.after hostOps1 (W2 m ρ c) (Proc.devRef .tc main_v1) = _; not_written hostOps1
theorem dst_at3 : W3 m ρ c (Proc.devRef .tc main_v3) = Cert.ReferenceIdeal.Read.val_main_v3 (F := Ideal) (m ((c : Thread nD τ).loc main_arg1)) := by
  refine Eq.trans ?_ (dst_at2 m ρ c)
  show StableHlo.after hostOps1 (W2 m ρ c) (Proc.devRef .tc main_v3) = _; not_written hostOps1
theorem norm_at3 : W3 m ρ c (Proc.devRef .tc main_v28) = Cert.ReferenceIdeal.Read.val_main_v34 (F := Ideal) (m ((c : Thread nD τ).loc main_arg1)) := by
  refine Eq.trans ?_ (norm_at2 m ρ c)
  show StableHlo.after hostOps1 (W2 m ρ c) (Proc.devRef .tc main_v28) = _; not_written hostOps1
theorem arg0_at3 : W3 m ρ c (Proc.devRef .tc main_arg0) = (m ((c : Thread nD τ).loc main_arg0)) := by
  refine Eq.trans ?_ (arg0_at2 m ρ c)
  show StableHlo.after hostOps1 (W2 m ρ c) (Proc.devRef .tc main_arg0) = _; not_written hostOps1
theorem arg4_at3 : W3 m ρ c (Proc.devRef .tc main_arg4) = (m ((c : Thread nD τ).loc main_arg4)) := by
  refine Eq.trans ?_ (arg4_at2 m ρ c)
  show StableHlo.after hostOps1 (W2 m ρ c) (Proc.devRef .tc main_arg4) = _; not_written hostOps1
theorem arg5_at3 : W3 m ρ c (Proc.devRef .tc main_arg5) = (m ((c : Thread nD τ).loc main_arg5)) := by
  refine Eq.trans ?_ (arg5_at2 m ρ c)
  show StableHlo.after hostOps1 (W2 m ρ c) (Proc.devRef .tc main_arg5) = _; not_written hostOps1

/-! ## The second and third pallas_calls -/

/-- The first layer's output. -/
theorem o1_at4 : W4 m ρ c (Proc.devRef .tc main_v43) = Cert.Gcn.layer1 (m ((c : Thread nD τ).loc main_arg0)) (m ((c : Thread nD τ).loc main_arg1)) (m ((c : Thread nD τ).loc main_arg2)) (m ((c : Thread nD τ).loc main_arg3)) := by
  refine (W4_arr m ρ c 4).trans ((Cert.KernelIdeal.Tail1.final1 (V3 m ρ) c).trans ?_)
  show Cert.Gcn.tail1 (W3 m ρ c (Proc.devRef .tc main_v41)) (W3 m ρ c (Proc.devRef .tc main_v29))
    (W3 m ρ c (Proc.devRef .tc main_v12)) (W3 m ρ c (Proc.devRef .tc main_v42)) = _
  rw [agg1_at3, h1_at3, deg_at3, b1_at3, h1_at2]; rfl

theorem src_at5 : W5 m ρ c (Proc.devRef .tc main_v1) = Cert.ReferenceIdeal.Read.val_main_v1 (F := Ideal) (m ((c : Thread nD τ).loc main_arg1)) :=
  (W5_of_ne m ρ c main_v1 (by decide)).trans ((W4_of_ne m ρ c main_v1 (by decide)).trans (src_at3 m ρ c))
theorem dst_at5 : W5 m ρ c (Proc.devRef .tc main_v3) = Cert.ReferenceIdeal.Read.val_main_v3 (F := Ideal) (m ((c : Thread nD τ).loc main_arg1)) :=
  (W5_of_ne m ρ c main_v3 (by decide)).trans ((W4_of_ne m ρ c main_v3 (by decide)).trans (dst_at3 m ρ c))
theorem norm_at5 : W5 m ρ c (Proc.devRef .tc main_v28) = Cert.ReferenceIdeal.Read.val_main_v34 (F := Ideal) (m ((c : Thread nD τ).loc main_arg1)) :=
  (W5_of_ne m ρ c main_v28 (by decide)).trans ((W4_of_ne m ρ c main_v28 (by decide)).trans (norm_at3 m ρ c))
theorem deg_at5 : W5 m ρ c (Proc.devRef .tc main_v12) = Cert.ReferenceIdeal.Read.val_main_v41 (F := Ideal) (m ((c : Thread nD τ).loc main_arg1)) :=
  (W5_of_ne m ρ c main_v12 (by decide)).trans
    (((W4_arr m ρ c 2).trans (((dat1 (V3 m ρ) c).arrAt_in 2 rfl _).trans (A_eq1 (V3 m ρ) c 2))).trans (deg_at3 m ρ c))
theorem arg0_at5 : W5 m ρ c (Proc.devRef .tc main_arg0) = (m ((c : Thread nD τ).loc main_arg0)) :=
  (W5_of_ne m ρ c main_arg0 (by decide)).trans ((W4_of_ne m ρ c main_arg0 (by decide)).trans (arg0_at3 m ρ c))
theorem arg5_at5 : W5 m ρ c (Proc.devRef .tc main_arg5) = (m ((c : Thread nD τ).loc main_arg5)) :=
  (W5_of_ne m ρ c main_arg5 (by decide)).trans ((W4_of_ne m ρ c main_arg5 (by decide)).trans (arg5_at3 m ρ c))
theorem arg4_at4 : W4 m ρ c (Proc.devRef .tc main_arg4) = (m ((c : Thread nD τ).loc main_arg4)) :=
  (W4_of_ne m ρ c main_arg4 (by decide)).trans (arg4_at3 m ρ c)

/-- The second dense product, o₁ · W₂. -/
theorem h2_at5 : W5 m ρ c (Proc.devRef .tc main_v44)
    = Cert.Gcn.dense (Cert.Gcn.layer1 (m ((c : Thread nD τ).loc main_arg0)) (m ((c : Thread nD τ).loc main_arg1)) (m ((c : Thread nD τ).loc main_arg2)) (m ((c : Thread nD τ).loc main_arg3))) (m ((c : Thread nD τ).loc main_arg4)) := by
  refine (W5_arr m ρ c 2).trans ((Cert.KernelIdeal.Dense2.final2 (V4 m ρ) c).trans ?_)
  show Cert.Gcn.dense (W4 m ρ c (Proc.devRef .tc main_v43)) (W4 m ρ c (Proc.devRef .tc main_arg4)) = _
  rw [o1_at4, arg4_at4]

/-! ## The last stretch and the fourth pallas_call -/

theorem agg2_at6 : W6 m ρ c (Proc.devRef .tc main_v56)
    = Cert.Gcn.aggOf (m ((c : Thread nD τ).loc main_arg1)) (W5 m ρ c (Proc.devRef .tc main_v44)) := by
  dsimp only [W6, hostOps3]; after_results_simp
  rw [src_at5, dst_at5, norm_at5]; rfl

theorem b2_at6 : W6 m ρ c (Proc.devRef .tc main_v57) = Cert.ReferenceIdeal.Read.val_main_v45 (F := Ideal) (m ((c : Thread nD τ).loc main_arg5)) := by
  dsimp only [W6, hostOps3]; after_results_simp
  rw [arg5_at5]; exact row_bias _ _ _

theorem h2_at6 : W6 m ρ c (Proc.devRef .tc main_v44) = W5 m ρ c (Proc.devRef .tc main_v44) := by
  show StableHlo.after hostOps3 (W5 m ρ c) (Proc.devRef .tc main_v44) = _; not_written hostOps3
theorem deg_at6 : W6 m ρ c (Proc.devRef .tc main_v12) = Cert.ReferenceIdeal.Read.val_main_v41 (F := Ideal) (m ((c : Thread nD τ).loc main_arg1)) := by
  refine Eq.trans ?_ (deg_at5 m ρ c)
  show StableHlo.after hostOps3 (W5 m ρ c) (Proc.devRef .tc main_v12) = _; not_written hostOps3
theorem arg0_at6 : W6 m ρ c (Proc.devRef .tc main_arg0) = (m ((c : Thread nD τ).loc main_arg0)) := by
  refine Eq.trans ?_ (arg0_at5 m ρ c)
  show StableHlo.after hostOps3 (W5 m ρ c) (Proc.devRef .tc main_arg0) = _; not_written hostOps3

/-- THE RESULT: what the last boundary's contents hold in the result buffer is the network of the launch arguments. -/
theorem kernel_value : W7 m ρ c (Proc.devRef .tc main_v58)
    = Cert.Gcn.net (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) := by
  refine (W7_arr m ρ c 5).trans ((Cert.KernelIdeal.Tail3.final3 (V6 m ρ) c).trans ?_)
  show Cert.Gcn.tail2 (W6 m ρ c (Proc.devRef .tc main_v56)) (W6 m ρ c (Proc.devRef .tc main_v44))
    (W6 m ρ c (Proc.devRef .tc main_v12)) (W6 m ρ c (Proc.devRef .tc main_v57)) (W6 m ρ c (Proc.devRef .tc main_arg0)) = _
  rw [agg2_at6, h2_at6, deg_at6, b2_at6, arg0_at6, h2_at5]; rfl

end Cert.KernelIdeal.Fold

end
-- ==== Proof.lean ====
/-
  Two layers of graph convolution with self-loops, `relu (Â (x W₁) + b₁)` then `relu (Â (o₁ W₂) + b₂ + x)`, where
  `Â h = scatter-add over the edges of dinv[src]·dinv[dst]·h[src] + dinv²·h` and `dinv` is the inverse root of the
  in-degree plus one: the kernel computes the two dense products and the two tails (`+ h·dinv² + b`, the residual,
  the clamp at zero) in four pallas_calls over 25 row blocks of 2000 rows, and everything that depends on the edge
  array on the host; the reference computes everything on the host. Over the extended reals the two are ONE function
  `Cert.Gcn.net` of the six argument arrays:
    * a row block of a dense product is the product of the row block, and both products are the same finite sum
      `∑ k, x(r,k)·W(k,c)` (the kernel's narrowing of its operands is the identity on exact values);
    * the tails are the same expression entry by entry, in the same order of additions: no law of arithmetic is used
      and the finiteness of the inputs is never opened;
    * the aggregation over the edges is the same host term of the edge array and of the dense product on both sides.
  The frames are the generated ones; the reference's is its generated run with the result dropped. The kernel's run is
  the frame's launch with the result buffer named, its contents read back through the segments of @main
  (`Cert.KernelIdeal.Fold.kernel_value`); the reference's last stage is the same network (`Cert.Gcn.ref_value`).
-/
import proofs.«152891_j25975962206483_1_alg».proof.Defs
import proofs.«152891_j25975962206483_1_alg».proof.Proof.Gen.Kernel
import proofs.«152891_j25975962206483_1_alg».proof.Proof.Gen.Kernel.Skeleton
import proofs.«152891_j25975962206483_1_alg».proof.Proof.Gen.Kernel.Launch
import proofs.«152891_j25975962206483_1_alg».proof.Proof.Gen.Kernel.Points
import proofs.«152891_j25975962206483_1_alg».proof.Proof.Gen.Kernel.Frame
import proofs.«152891_j25975962206483_1_alg».proof.Proof.Gen.KernelIdeal
import proofs.«152891_j25975962206483_1_alg».proof.Proof.Gen.KernelIdeal.Skeleton
import proofs.«152891_j25975962206483_1_alg».proof.Proof.Gen.KernelIdeal.Launch
import proofs.«152891_j25975962206483_1_alg».proof.Proof.Gen.KernelIdeal.Points
import proofs.«152891_j25975962206483_1_alg».proof.Proof.Gen.KernelIdeal.Frame
import proofs.«152891_j25975962206483_1_alg».proof.Proof.Gen.ReferenceIdeal
import proofs.«152891_j25975962206483_1_alg».proof.Proof.Gen.Pre_finite_inputs
import proofs.«152891_j25975962206483_1_alg».proof.Proof.Gen.ReferenceIdeal.Run
import proofs.«152891_j25975962206483_1_alg».proof.Proof.Gen.ReferenceIdeal.Read
import proofs.«152891_j25975962206483_1_alg».proof.Proof.RunNamed
import proofs.«152891_j25975962206483_1_alg».proof.Proof.RefLayers
import proofs.«152891_j25975962206483_1_alg».proof.Proof.Fold
import Idealize.ShloMosaic.Adequacy
import Idealize.ShloMosaic.Init

noncomputable section

namespace Cert.Proof

open Idealize.ShloMosaic Idealize.ShloMosaic.TcCoe Idealize.SL.Sem

/-- From memories agreeing on the arguments both idealized programs end with the result array at the network of the
    arguments: the kernel's by its named run and the fold read back, the reference's by its run and its last stage. -/
theorem algebraic : Cert.algebraic_KernelIdeal_ReferenceIdeal (hKernelIdeal := Cert.KernelIdeal.Gen.facts)
    (hReferenceIdeal := Cert.ReferenceIdeal.Gen.facts) (hPre_finite_inputs := Cert.Pre_finite_inputs.Gen.facts) := by
  intro m ρ m' ρ' _ hagree
  refine ⟨fun c => Cert.Gcn.net (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)), ?_, ?_⟩
  · exact (θ_run Cert.KernelIdeal.defs _ _).mono
      (fun r h c => ⟨(h c).1.trans (Cert.KernelIdeal.Fold.kernel_value m ρ c), (h c).2⟩) (Cert.KernelIdeal.Gen.run_named m ρ)
  · refine (θ_run Cert.ReferenceIdeal.defs _ _).mono (fun _ h c => ⟨(h c).1.trans ?_, (h c).2⟩)
      (Cert.ReferenceIdeal.Value.run (F := Ideal) m' ρ')
    rw [Cert.ReferenceIdeal.Read.val_main_v94_eq, Cert.Gcn.ref_value, (hagree c).1, (hagree c).2.1, (hagree c).2.2.1,
      (hagree c).2.2.2.1, (hagree c).2.2.2.2.1, (hagree c).2.2.2.2.2]

theorem claim : Cert.Claim := ⟨Cert.Kernel.Gen.facts, Cert.KernelIdeal.Gen.facts, Cert.ReferenceIdeal.Gen.facts, Cert.Pre_finite_inputs.Gen.facts,
  fun m ρ _ => Cert.Kernel.Gen.frame m ρ,
  fun m ρ _ => Cert.KernelIdeal.Gen.frame m ρ,
  fun m ρ _ => (θ_run Cert.ReferenceIdeal.defs _ _).mono (fun _ h c => (h c).2) (Cert.ReferenceIdeal.Value.run (F := Ideal) m ρ),
  trivial,
  algebraic⟩

end Cert.Proof

end
